-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S8192x512 : Shape := ⟨2, ![8192, 512]⟩
abbrev S1000x512 : Shape := ⟨2, ![1000, 512]⟩
abbrev S8192 : Shape := ⟨1, ![8192]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S1000x512 : S_.BroadcastsInDim S1000x512 (![] : Fin 0 → Fin S1000x512.rank)
  reducesTo_S1000x512_S_d0_1 : S1000x512.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg3 : IVec S8192 32) (main_v13 : IVec S_ 1) (main_v15 : IVec S8192 1) (main_c_5 : IVec S_ 1) : IVec S_ 1 :=
  let main_v16 : IVec S_ 1 := (fun x v => Host.reduce IntOp.andi x v reducesTo_S8192_S_d0 h_S_) main_v15 main_c_5
  let main_v17 : IVec S_ 1 := andi main_v13 main_v16
  let main_c_6 : IVec S_ 32 := constantI S_ 32 1000#32
  let main_v18 : IVec S8192 32 := broadcastInDim S8192 ![] bcast_S_S8192 main_c_6
  let main_v19 : IVec S8192 1 := cmpi .slt main_arg3 main_v18
  let main_c_7 : IVec S_ 1 := constantI S_ 1 1#1
  let main_v20 : IVec S_ 1 := (fun x v => Host.reduce IntOp.andi x v reducesTo_S8192_S_d0 h_S_) main_v19 main_c_7
  let main_v21 : IVec S_ 1 := andi main_v17 main_v20
  main_v21

def fn {F : FTy → Type} [FloatOps F] (main_arg0 : FVec F S4096x512 .f32) (main_arg1 : FVec F S8192x512 .f32) (main_arg2 : FVec F S1000x512 .f32) (main_arg3 : IVec S8192 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S1000x512 .f32 := Host.absf main_arg2
  let main_cst_2 : FVec F S_ .f32 := constant S_ .f32 0x7F800000#32
  let main_v10 : FVec F S1000x512 .f32 := broadcastInDim S1000x512 ![] bcast_S_S1000x512 main_cst_2
  let main_v11 : IVec S1000x512 1 := cmpf .olt main_v9 main_v10
  let main_c_3 : IVec S_ 1 := constantI S_ 1 1#1
  let main_v12 : IVec S_ 1 := (fun x v => Host.reduce IntOp.andi x v reducesTo_S1000x512_S_d0_1 h_S_) main_v11 main_c_3
  let main_v13 : IVec S_ 1 := andi main_v8 main_v12
  let main_c_4 : IVec S_ 32 := constantI S_ 32 0#32
  let main_v14 : IVec S8192 32 := broadcastInDim S8192 ![] bcast_S_S8192 main_c_4
  let main_v15 : IVec S8192 1 := cmpi .sge main_arg3 main_v14
  let main_c_5 : IVec S_ 1 := constantI S_ 1 1#1
  fn_part1 (F := F) main_arg3 main_v13 main_v15 main_c_5
-- ==== Kernel.lean ====
abbrev S4096x512 : Shape := ⟨2, ![4096, 512]⟩
abbrev S8192x512 : Shape := ⟨2, ![8192, 512]⟩
abbrev S1000x512 : Shape := ⟨2, ![1000, 512]⟩
abbrev S8192 : Shape := ⟨1, ![8192]⟩
abbrev S_ : Shape := ⟨0, ![]⟩
abbrev S4096 : Shape := ⟨1, ![4096]⟩
abbrev S4096x1 : Shape := ⟨2, ![4096, 1]⟩
abbrev S8192x1 : Shape := ⟨2, ![8192, 1]⟩
abbrev S1 : Shape := ⟨1, ![1]⟩
abbrev S1x1 : Shape := ⟨2, ![1, 1]⟩
abbrev S512x1000 : Shape := ⟨2, ![512, 1000]⟩
abbrev S4096x1000 : Shape := ⟨2, ![4096, 1000]⟩
abbrev S1024x512 : Shape := ⟨2, ![1024, 512]⟩
abbrev S1024x1000 : Shape := ⟨2, ![1024, 1000]⟩
abbrev S1024x1024 : Shape := ⟨2, ![1024, 1024]⟩

abbrev nBuf : Space → Nat
  | .hbm => 53
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S1000x512, .f32⟩
  | .hbm, ⟨3, _⟩ => ⟨S8192, .i32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x512, .f32⟩
  | .hbm, ⟨13, _⟩ => ⟨S4096x512, .f32⟩
  | .hbm, ⟨14, _⟩ => ⟨S4096x512, .bf16⟩
  | .hbm, ⟨15, _⟩ => ⟨S8192x512, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x512, .f32⟩
  | .hbm, ⟨24, _⟩ => ⟨S8192x512, .f32⟩
  | .hbm, ⟨25, _⟩ => ⟨S8192x512, .bf16⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S1, .i32⟩
  | .hbm, ⟨35, _⟩ => ⟨S_, .i32⟩
  | .hbm, ⟨36, _⟩ => ⟨S8192x1, .i32⟩
  | .hbm, ⟨37, _⟩ => ⟨S8192x1, .i1⟩
  | .hbm, ⟨38, _⟩ => ⟨S1x1, .i32⟩
  | .hbm, ⟨39, _⟩ => ⟨S8192x1, .i32⟩
  | .hbm, ⟨40, _⟩ => ⟨S8192x1, .i1⟩
  | .hbm, ⟨41, _⟩ => ⟨S8192x1, .i1⟩
  | .hbm, ⟨42, _⟩ => ⟨S_, .i1⟩
  | .hbm, ⟨43, _⟩ => ⟨S8192, .i1⟩
  | .hbm, ⟨44, _⟩ => ⟨S8192x512, .f32⟩
  | .hbm, ⟨45, _⟩ => ⟨S8192x512, .i1⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S8192x512, .bf16⟩
  | .hbm, ⟨50, _⟩ => ⟨S512x1000, .f32⟩
  | .hbm, ⟨51, _⟩ => ⟨S512x1000, .bf16⟩
  | .hbm, ⟨52, _⟩ => ⟨S4096x1000, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1000, .bf16⟩
  | .local _ .vmem, ⟨7, _⟩ => ⟨S1024x1000, .f32⟩
  | .local _ .vmem, ⟨8, _⟩ => ⟨S1024x1000, .f32⟩
  | .local _ .vmem, ⟨9, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call2_c : Ref sig .tc := ⟨.hbm, 26, rfl⟩
abbrev main_call2_v0 : Ref sig .tc := ⟨.hbm, 27, rfl⟩
abbrev main_call2_v1 : Ref sig .tc := ⟨.hbm, 28, rfl⟩
abbrev main_call2_c_0 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_c_1 : Ref sig .tc := ⟨.hbm, 34, rfl⟩
abbrev main_call2_c_2 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_c_3 : Ref sig .tc := ⟨.hbm, 42, rfl⟩
abbrev main_call2_v12 : Ref sig .tc := ⟨.hbm, 43, rfl⟩
abbrev main_call2_v13 : Ref sig .tc := ⟨.hbm, 44, rfl⟩
abbrev main_call2_v14 : Ref sig .tc := ⟨.hbm, 45, rfl⟩
abbrev main_call2_cst : Ref sig .tc := ⟨.hbm, 46, rfl⟩
abbrev main_call2_v15 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S512x1000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bitsLt_bf16_f32 : FTy.bits .bf16 < FTy.bits .f32
  reducesTo_S8192x512_S8192_d1 : S8192x512.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S8192 : S_.BroadcastsInDim S8192 (![] : Fin 0 → Fin S8192.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x512_0 : S8192.BroadcastsInDim S8192x512 (![0] : Fin 1 → Fin S8192x512.rank)
  bcast_S_S8192x512 : S_.BroadcastsInDim S8192x512 (![] : Fin 0 → Fin S8192x512.rank)
  transposes_S1000x512_S512x1000_1_0 : S1000x512.Transposes [1, 0] S512x1000
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1000_S512x1000_0_0 : ∀ a, (![0, 0] : Fin 2 → Nat) a + S512x1000.size a ≤ S512x1000.size a
  h_S512x1000 : 0 < S512x1000.numel
  shapeCasts_S512x1000_S512x1000 : S512x1000.ShapeCasts S512x1000
  inb_S1024x1000_S1024x1000_0_0 : ∀ a, (![0, 0] : Fin 2 → Nat) a + S1024x1000.size a ≤ S1024x1000.size a
  h_S1024x1000 : 0 < S1024x1000.numel
  gather_S1000x512_S8192x1_S8192x512_1_0_n_n_0_1_1512_wf : GatherDims.WF S1000x512 S8192x1 S8192x512 [1] [0] [] [0] [] 1 ![1, 512]
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  dot_S1024x512_S512x1000_S1024x1000_1_0_0_1_n_n_wf : DotDims.WF S1024x512 S512x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .bf16 = 32 ∨ (Rect.block (s := S4096x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .bf16 = 32 ∨ (Rect.block (s := S8192x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1000.size a ≤ S512x1000.size a
  hwx0_3 : ∀ i : grid0.Coords, EltTy.bits .bf16 = 32 ∨ (Rect.block (s := S512x1000) S512x1000.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1000.size a ≤ S4096x1000.size a
  hwx0_4 : ∀ i : grid0.Coords, EltTy.bits .f32 = 32 ∨ (Rect.block (s := S4096x1000) S1024x1000.size (cc0_transform_4 i) (hinb0_4 i)).WholeWords (EltTy.packing .f32)

variable [Facts₀]

def gather_S1000x512_S8192x1_S8192x512_1_0_n_n_0_1_1512 : GatherDims S1000x512 S8192x1 S8192x512 where
  offsetDims := [1]
  collapsedSliceDims := [0]
  operandBatchingDims := []
  startIndicesBatchingDims := []
  startIndexMap := [0]
  indexVectorDim := 1
  sliceSizes := ![1, 512]
  wf := gather_S1000x512_S8192x1_S8192x512_1_0_n_n_0_1_1512_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1000_S1024x1000_1_0_0_1_n_n : DotDims S1024x512 S512x1000 S1024x1000 where
  lhsContracting := [1]
  rhsContracting := [0]
  lhsNonContracting := [0]
  rhsNonContracting := [1]
  lhsBatch := []
  rhsBatch := []
  wf := dot_S1024x512_S512x1000_S1024x1000_1_0_0_1_n_n_wf

abbrev win0_0 : Pipeline.Window sig grid0 :=
  Pipeline.Window.ofSpec (Memref.whole main_v5) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1024x1000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S8192x512 : Shape := ⟨2, ![8192, 512]⟩
abbrev S1000x512 : Shape := ⟨2, ![1000, 512]⟩
abbrev S8192 : Shape := ⟨1, ![8192]⟩
abbrev S_ : Shape := ⟨0, ![]⟩
abbrev S4096 : Shape := ⟨1, ![4096]⟩
abbrev S4096x1 : Shape := ⟨2, ![4096, 1]⟩
abbrev S8192x1 : Shape := ⟨2, ![8192, 1]⟩
abbrev S512x8192 : Shape := ⟨2, ![512, 8192]⟩
abbrev S4096x8192 : Shape := ⟨2, ![4096, 8192]⟩
abbrev S512x1000 : Shape := ⟨2, ![512, 1000]⟩
abbrev S4096x1000 : Shape := ⟨2, ![4096, 1000]⟩

abbrev nBuf : Space → Nat
  | .hbm => 45
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S1000x512, .f32⟩
  | .hbm, ⟨3, _⟩ => ⟨S8192, .i32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x512, .f32⟩
  | .hbm, ⟨13, _⟩ => ⟨S4096x512, .f32⟩
  | .hbm, ⟨14, _⟩ => ⟨S8192x512, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S512x8192, .f32⟩
  | .hbm, ⟨25, _⟩ => ⟨S4096x8192, .f32⟩
  | .hbm, ⟨26, _⟩ => ⟨S_, .f32⟩
  | .hbm, ⟨27, _⟩ => ⟨S4096x8192, .f32⟩
  | .hbm, ⟨28, _⟩ => ⟨S4096x8192, .f32⟩
  | .hbm, ⟨29, _⟩ => ⟨S_, .f32⟩
  | .hbm, ⟨30, _⟩ => ⟨S4096x8192, .f32⟩
  | .hbm, ⟨31, _⟩ => ⟨S4096x8192, .f32⟩
  | .hbm, ⟨32, _⟩ => ⟨S4096x8192, .f32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S8192x1, .i32⟩
  | .hbm, ⟨41, _⟩ => ⟨S8192x512, .f32⟩
  | .hbm, ⟨42, _⟩ => ⟨S4096x512, .f32⟩
  | .hbm, ⟨43, _⟩ => ⟨S512x1000, .f32⟩
  | .hbm, ⟨44, _⟩ => ⟨S4096x1000, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  reducesTo_S8192x512_S8192_d1 : S8192x512.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S_S4096x8192 : S_.BroadcastsInDim S4096x8192 (![] : Fin 0 → Fin S4096x8192.rank)
  bcast_S_S8192 : S_.BroadcastsInDim S8192 (![] : Fin 0 → Fin S8192.rank)
  transposes_S1000x512_S512x1000_1_0 : S1000x512.Transposes [1, 0] S512x1000
  dot_S4096x512_S512x8192_S4096x8192_1_0_0_1_n_n_wf : DotDims.WF S4096x512 S512x8192 S4096x8192 [1] [0] [0] [1] [] []
  gather_S1000x512_S8192x1_S8192x512_1_0_n_n_0_1_1512_wf : GatherDims.WF S1000x512 S8192x1 S8192x512 [1] [0] [] [0] [] 1 ![1, 512]
  dot_S4096x8192_S8192x512_S4096x512_1_0_0_1_n_n_wf : DotDims.WF S4096x8192 S8192x512 S4096x512 [1] [0] [0] [1] [] []
  dot_S4096x512_S512x1000_S4096x1000_1_0_0_1_n_n_wf : DotDims.WF S4096x512 S512x1000 S4096x1000 [1] [0] [0] [1] [] []

variable [Facts₀]

def dot_S4096x512_S512x8192_S4096x8192_1_0_0_1_n_n : DotDims S4096x512 S512x8192 S4096x8192 where
  lhsContracting := [1]
  rhsContracting := [0]
  lhsNonContracting := [0]
  rhsNonContracting := [1]
  lhsBatch := []
  rhsBatch := []
  wf := dot_S4096x512_S512x8192_S4096x8192_1_0_0_1_n_n_wf
def gather_S1000x512_S8192x1_S8192x512_1_0_n_n_0_1_1512 : GatherDims S1000x512 S8192x1 S8192x512 where
  offsetDims := [1]
  collapsedSliceDims := [0]
  operandBatchingDims := []
  startIndicesBatchingDims := []
  startIndexMap := [0]
  indexVectorDim := 1
  sliceSizes := ![1, 512]
  wf := gather_S1000x512_S8192x1_S8192x512_1_0_n_n_0_1_1512_wf
def dot_S4096x8192_S8192x512_S4096x512_1_0_0_1_n_n : DotDims S4096x8192 S8192x512 S4096x512 where
  lhsContracting := [1]
  rhsContracting := [0]
  lhsNonContracting := [0]
  rhsNonContracting := [1]
  lhsBatch := []
  rhsBatch := []
  wf := dot_S4096x8192_S8192x512_S4096x512_1_0_0_1_n_n_wf
def dot_S4096x512_S512x1000_S4096x1000_1_0_0_1_n_n : DotDims S4096x512 S512x1000 S4096x1000 where
  lhsContracting := [1]
  rhsContracting := [0]
  lhsNonContracting := [0]
  rhsNonContracting := [1]
  lhsBatch := []
  rhsBatch := []
  wf := dot_S4096x512_S512x1000_S4096x1000_1_0_0_1_n_n_wf

class Facts : Prop extends Facts₀ where

variable [Facts]
-- ==== Proof.Spec.lean ====
/-
  Exponential-kernel attention over class prototypes, as mathematics on the extended reals.

  For query rows `q`, support rows `k`, a prototype row `sp s` per support row and the prototype table `cp`, the
  weight of query row `a` on support row `s` is `exp (⟨q a, k s⟩ - 1)`, the weighted prototype is
  `∑ s, weight a s * sp s d`, and the logit of class `c` is its inner product with prototype row `c`.

  Two facts join the two ways this is computed. The exponent `x - 1` is `(-1) * (1 - x)` for every extended real
  `x`, the infinities included. And a sum over `H * B` positions is the sum, block by block, over `H` blocks of `B`
  positions: addition on the extended reals is associative and commutative, so the grouping does not matter.
-/
import Idealize.ShloMosaic.PureOps.Ideal.Laws
import Idealize.ShloMosaic.Lib.ValueIdx
import Idealize.ShloMosaic.Lib.IdealHost
import Mathlib.Algebra.BigOperators.Fin

noncomputable section

open scoped BigOperators

namespace Cert.Attn

open Idealize.ShloMosaic Idealize.ShloMosaic.ValueIdx

/-! ## The two float words of the exponent -/

/-- The f32 pattern `0xBF800000` is the real minus one. -/
theorem ofBits_neg_one_f32 : Ideal.ofBits .f32 0xBF800000#32 = ((-(1 : ℝ) : ℝ) : EReal) := by
  simp [Ideal.ofBits, Ideal.ieee, -EReal.coe_mul, -EReal.coe_neg]; norm_num

/-- `(-1) * (1 - x) = x - 1` on the extended reals: at a real by arithmetic, at `⊤` both sides are `⊤`, at `⊥`
    both are `⊥`. -/
theorem neg_one_mul_one_sub (x : EReal) : ((-(1 : ℝ) : ℝ) : EReal) * (1 - x) = x - 1 := by
  induction x using EReal.rec with
  | bot =>
    have h1 : (1 : EReal) - ⊥ = ⊤ := EReal.coe_sub_bot 1
    rw [h1, EReal.coe_mul_top_of_neg (by norm_num)]
    exact (EReal.bot_sub 1).symm
  | coe r =>
    rw [show (1 : EReal) = ((1 : ℝ) : EReal) from rfl, ← EReal.coe_sub, ← EReal.coe_mul, ← EReal.coe_sub]
    congr 1; ring
  | top =>
    have h1 : (1 : EReal) - ⊤ = ⊥ := EReal.sub_top 1
    rw [h1, EReal.coe_mul_bot_of_neg (by norm_num)]
    exact (EReal.top_sub_coe 1).symm

/-! ## Weights and logits -/

/-- The weight of query row `a` on support row `s`: `exp (⟨q a, k s⟩ - 1)`. -/
def weight {Q S D : ℕ} (q : (⟨2, ![Q, D]⟩ : Shape).Idx → EReal) (k : (⟨2, ![S, D]⟩ : Shape).Idx → EReal)
    (a : Fin Q) (s : Fin S) : EReal :=
  Ideal.exp ((∑ e : Fin D, q (ix2 a e) * k (ix2 s e)) - 1)

/-- The weighted prototype of query row `a`, coordinate `d`: `∑ s, weight a s * sp s d`. -/
def weighted {Q S D : ℕ} (q : (⟨2, ![Q, D]⟩ : Shape).Idx → EReal) (k : (⟨2, ![S, D]⟩ : Shape).Idx → EReal)
    (sp : (⟨2, ![S, D]⟩ : Shape).Idx → EReal) (a : Fin Q) (d : Fin D) : EReal :=
  ∑ s : Fin S, weight q k a s * sp (ix2 s d)

/-- The logits: the weighted prototype of each query row against every prototype row. -/
def logits {Q S D C : ℕ} (q : (⟨2, ![Q, D]⟩ : Shape).Idx → EReal) (k : (⟨2, ![S, D]⟩ : Shape).Idx → EReal)
    (sp : (⟨2, ![S, D]⟩ : Shape).Idx → EReal) (cp : (⟨2, ![C, D]⟩ : Shape).Idx → EReal) :
    (⟨2, ![Q, C]⟩ : Shape).Idx → EReal :=
  fun i => ∑ d : Fin D, weighted q k sp (i 0) d * cp (ix2 (i 1) d)

/-- The weight depends only on the two rows. -/
theorem weight_congr {Q S Q' S' D : ℕ} (q : (⟨2, ![Q, D]⟩ : Shape).Idx → EReal) (k : (⟨2, ![S, D]⟩ : Shape).Idx → EReal)
    (q' : (⟨2, ![Q', D]⟩ : Shape).Idx → EReal) (k' : (⟨2, ![S', D]⟩ : Shape).Idx → EReal)
    (a : Fin Q) (s : Fin S) (a' : Fin Q') (s' : Fin S')
    (hq : ∀ e, q (ix2 a e) = q' (ix2 a' e)) (hk : ∀ e, k (ix2 s e) = k' (ix2 s' e)) :
    weight q k a s = weight q' k' a' s' := by
  unfold weight
  congr 2
  exact Finset.sum_congr rfl fun e _ => by rw [hq e, hk e]

/-! ## A sum block by block -/

/-- Position `r` of block `j` lies below `H * B`. -/
theorem block_lt {H B : ℕ} {j : ℕ} (hj : j < H) (r : Fin B) : B * j + r.val < H * B := by
  calc B * j + r.val < B * j + B := Nat.add_lt_add_left r.isLt _
    _ = B * (j + 1) := (Nat.mul_succ _ _).symm
    _ ≤ B * H := Nat.mul_le_mul_left B hj
    _ = H * B := Nat.mul_comm _ _

/-- A sum over `H * B` positions, block by block: if `G j` is the sum of the terms at positions `B * j + r` for
    every block `j < H`, then summing `G` over the first `H` blocks sums every position once. -/
theorem sum_range_blocks {β : Type*} [AddCommMonoid β] {H B : ℕ} (f : Fin (H * B) → β) (G : ℕ → β)
    (hG : ∀ (j : ℕ) (hj : j < H), G j = ∑ r : Fin B, f ⟨B * j + r.val, block_lt hj r⟩) :
    ∑ j ∈ Finset.range H, G j = ∑ s : Fin (H * B), f s := by
  rw [← Fin.sum_univ_eq_sum_range G H]
  rw [Finset.sum_congr rfl fun j _ => hG j.val j.isLt]
  rw [← Fintype.sum_prod_type (f := fun p : Fin H × Fin B => f ⟨B * p.1.val + p.2.val, block_lt p.1.isLt p.2⟩)]
  refine Fintype.sum_equiv finProdFinEquiv _ _ fun p => congrArg f (Fin.ext ?_)
  show B * p.1.val + p.2.val = (finProdFinEquiv p).val
  rw [finProdFinEquiv_apply_val]
  exact Nat.add_comm _ _

end Cert.Attn

end
-- ==== Proof.Tiles.lean ====
/-
  The tiles a grid point works on.

  The grid is 4 query tiles by 8 support tiles, 32 points in row-major order: point `t` is query tile `t / 8` and
  support tile `t % 8`. At point `t` the first window holds rows `1024 * (t / 8) + p` of the normalised queries, the
  second and third hold rows `1024 * (t % 8) + r` of the normalised supports and of the gathered prototypes, and
  the fourth holds the whole transposed table. The output window's tile is rows `1024 * (t / 8) + p` of the
  logits.
-/
import proofs.«416455_j25872882991649_1_alg».proof.Proof.Gen.KernelIdeal.Value
import proofs.«416455_j25872882991649_1_alg».proof.Proof.Spec
import Idealize.ShloMosaic.Lib.Pipeline.Value

noncomputable section

namespace Cert.KernelIdeal.Tiles

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ)

/-! ## The arrays and the tiles, by their literal types -/

/-- The normalised queries, as the region finds them. -/
abbrev qArr (c : Dev nD) : S4096x512.Idx → EReal := V m c main_v5
/-- The normalised supports. -/
abbrev kArr (c : Dev nD) : S8192x512.Idx → EReal := V m c main_v11
/-- The gathered prototype rows. -/
abbrev pArr (c : Dev nD) : S8192x512.Idx → EReal := V m c main_v13
/-- The transposed prototype table. -/
abbrev tArr (c : Dev nD) : S512x1000.Idx → EReal := V m c main_v15

/-- The query tile at point `t`. -/
abbrev qTile (c : Dev nD) (t : Fin cfg0.N) : S1024x512.Idx → EReal := iblk m c 0 t
/-- The support tile at point `t`. -/
abbrev kTile (c : Dev nD) (t : Fin cfg0.N) : S1024x512.Idx → EReal := iblk m c 1 t
/-- The prototype rows of the support tile at point `t`. -/
abbrev pTile (c : Dev nD) (t : Fin cfg0.N) : S1024x512.Idx → EReal := iblk m c 2 t
/-- The transposed table, staged whole at every point. -/
abbrev tTile (c : Dev nD) (t : Fin cfg0.N) : S512x1000.Idx → EReal := iblk m c 3 t

/-! ## Which tile a point is -/

/-- The grid has 32 points. -/
theorem lt32 (t : Fin cfg0.N) : t.val < 32 := lt_of_lt_of_eq t.isLt (show cfg0.N = 32 from N_0)

/-- A point's query tile is one of 4. -/
theorem qt_lt (t : Fin cfg0.N) : t.val / 8 < 4 := by have := lt32 t; omega

/-- A point's support tile is one of 8. -/
theorem st_lt (t : Fin cfg0.N) : t.val % 8 < 8 := Nat.mod_lt _ (by decide)

/-- The printed index maps, decided over the grid. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0 :=
  (by decide +kernel : ∀ t : Fin grid0.N, _)

/-! ## The tiles are rows of the arrays -/

/-- Row `p` of the query tile at point `t` is row `1024 * (t / 8) + p` of the queries. -/
theorem qTile_apply (c : Dev nD) (t : Fin cfg0.N) (p : Fin 1024) (e : Fin 512) :
    qTile m c t (ix2 p e)
      = qArr m c (ix2 (⟨1024 * (t.val / 8) + p.val, Cert.Attn.block_lt (H := 4) (qt_lt t) p⟩ : Fin 4096) e) := by
  obtain ⟨e0, e1, -⟩ := idx_facts t
  unfold qTile iblk
  rw [View.read_apply]
  show V m c main_v5 _ = V m c main_v5 _
  congr 1
  funext a
  apply Fin.ext
  match a with
  | ⟨0, _⟩ => show win0_0.index t (0 : Fin 2) * 1024 + 1 * p.val = 1024 * (t.val / 8) + p.val; rw [e0]; omega
  | ⟨1, _⟩ => show win0_0.index t (1 : Fin 2) * 512 + 1 * e.val = e.val; rw [e1]; omega

/-- Row `r` of the support tile at point `t` is row `1024 * (t % 8) + r` of the supports. -/
theorem kTile_apply (c : Dev nD) (t : Fin cfg0.N) (r : Fin 1024) (e : Fin 512) :
    kTile m c t (ix2 r e)
      = kArr m c (ix2 (⟨1024 * (t.val % 8) + r.val, Cert.Attn.block_lt (H := 8) (st_lt t) r⟩ : Fin 8192) e) := by
  obtain ⟨-, -, e0, e1, -⟩ := idx_facts t
  unfold kTile iblk
  rw [View.read_apply]
  show V m c main_v11 _ = V m c main_v11 _
  congr 1
  funext a
  apply Fin.ext
  match a with
  | ⟨0, _⟩ => show win0_1.index t (0 : Fin 2) * 1024 + 1 * r.val = 1024 * (t.val % 8) + r.val; rw [e0]; omega
  | ⟨1, _⟩ => show win0_1.index t (1 : Fin 2) * 512 + 1 * e.val = e.val; rw [e1]; omega

/-- Row `r` of the prototype tile at point `t` is row `1024 * (t % 8) + r` of the gathered prototypes. -/
theorem pTile_apply (c : Dev nD) (t : Fin cfg0.N) (r : Fin 1024) (d : Fin 512) :
    pTile m c t (ix2 r d)
      = pArr m c (ix2 (⟨1024 * (t.val % 8) + r.val, Cert.Attn.block_lt (H := 8) (st_lt t) r⟩ : Fin 8192) d) := by
  obtain ⟨-, -, -, -, e0, e1, -⟩ := idx_facts t
  unfold pTile iblk
  rw [View.read_apply]
  show V m c main_v13 _ = V m c main_v13 _
  congr 1
  funext a
  apply Fin.ext
  match a with
  | ⟨0, _⟩ => show win0_2.index t (0 : Fin 2) * 1024 + 1 * r.val = 1024 * (t.val % 8) + r.val; rw [e0]; omega
  | ⟨1, _⟩ => show win0_2.index t (1 : Fin 2) * 512 + 1 * d.val = d.val; rw [e1]; omega

/-- The table tile is the whole transposed table. -/
theorem tTile_apply (c : Dev nD) (t : Fin cfg0.N) (d : Fin 512) (k : Fin 1000) :
    tTile m c t (ix2 d k) = tArr m c (ix2 d k) := by
  obtain ⟨-, -, -, -, -, -, e0, e1, -⟩ := idx_facts t
  unfold tTile iblk
  rw [View.read_apply]
  show V m c main_v15 _ = V m c main_v15 _
  congr 1
  funext a
  apply Fin.ext
  match a with
  | ⟨0, _⟩ => show win0_3.index t (0 : Fin 2) * 512 + 1 * d.val = d.val; rw [e0]; omega
  | ⟨1, _⟩ => show win0_3.index t (1 : Fin 2) * 1000 + 1 * k.val = k.val; rw [e1]; omega

end Cert.KernelIdeal.Tiles

end
-- ==== Proof.Pieces.lean ====
/-
  What one grid point leaves behind, as the body's arithmetic.

  The body keeps a running [1024, 512] accumulator. At the first support tile it is zeroed and the tile's
  contribution added; at every later tile the contribution is added to what the tile before left; at the last tile
  the finished accumulator is multiplied by the transposed prototype table and stored as the output tile. Here each
  of these is identified with the body's pure terms: `k0_pay1` (the zero splat), `k0_pay2 q k acc sp` (the
  accumulator plus this tile's contribution) and `k0_pay3 acc cpt` (the final product).
-/
import proofs.«416455_j25872882991649_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic
  Idealize.SL.Sem

variable {F : FTy → Type} [FloatOps F]

/-- The offset of a store or load of a whole buffer. -/
theorem off_zero : (![0, 0] : Fin 2 → ℕ) = fun _ => 0 := by funext a; fin_cases a <;> rfl

/-- First support tile: the accumulator is zeroed, then this tile's contribution is added. -/
theorem scratch_first (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S512x1000 .bf16) (harg5 : arg5.IsWhole) (arg6 : Memref sig .tc .vmem S1024x1000 .f32) (harg6 : arg6.IsWhole) (arg7 : Memref sig .tc .vmem S1024x512 .f32) (harg7 : arg7.IsWhole) (hc0 : cond0_0 i) (hc1 : ¬cond0_1 i)
    (x0 : Vec F S1024x512 .bf16) (x1 : Vec F S1024x512 .bf16) (x2 : Vec F S1024x512 .bf16) (x3 : Vec F S512x1000 .bf16) :
    sout0_A_0 (F := F) c i arg2 harg2 arg3 harg3 arg4 harg4 arg5 harg5 arg6 harg6 arg7 harg7 hc0 hc1 x0 x1 x2 x3 = k0_pay2 x0 x1 (k0_pay1 (F := F)) x2 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x512) off_zero]
  simp only [View.readAt_eq_ld, Memref.IsWhole.read_unread, View.ld_unit_zero (S := S1024x512) off_zero,
    View.readCov_unit_zero (S := S1024x512) _ off_zero]

/-- A middle support tile: this tile's contribution is added to what the tile before left. -/
theorem scratch_middle (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S512x1000 .bf16) (harg5 : arg5.IsWhole) (arg6 : Memref sig .tc .vmem S1024x1000 .f32) (harg6 : arg6.IsWhole) (arg7 : Memref sig .tc .vmem S1024x512 .f32) (harg7 : arg7.IsWhole) (hc0 : ¬cond0_0 i) (hc1 : ¬cond0_1 i)
    (x0 : Vec F S1024x512 .bf16) (x1 : Vec F S1024x512 .bf16) (x2 : Vec F S1024x512 .bf16) (x3 : Vec F S512x1000 .bf16) (xs0 : Vec F S1024x512 .f32) :
    sout0_B_0 (F := F) c i arg2 harg2 arg3 harg3 arg4 harg4 arg5 harg5 arg6 harg6 arg7 harg7 hc0 hc1 x0 x1 x2 x3 xs0 = k0_pay2 x0 x1 xs0 x2 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S1024x512) off_zero]
  simp only [View.readAt_eq_ld, Memref.IsWhole.read_unread, View.ld_unit_zero (S := S1024x512) off_zero]

/-- The last support tile: the accumulator still gets this tile's contribution added. -/
theorem scratch_last (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S512x1000 .bf16) (harg5 : arg5.IsWhole) (arg6 : Memref sig .tc .vmem S1024x1000 .f32) (harg6 : arg6.IsWhole) (arg7 : Memref sig .tc .vmem S1024x512 .f32) (harg7 : arg7.IsWhole) (hc0 : ¬cond0_0 i) (hc1 : cond0_1 i)
    (x0 : Vec F S1024x512 .bf16) (x1 : Vec F S1024x512 .bf16) (x2 : Vec F S1024x512 .bf16) (x3 : Vec F S512x1000 .bf16) (xs0 : Vec F S1024x512 .f32) :
    sout0_C_0 (F := F) c i arg2 harg2 arg3 harg3 arg4 harg4 arg5 harg5 arg6 harg6 arg7 harg7 hc0 hc1 x0 x1 x2 x3 xs0 = k0_pay2 x0 x1 xs0 x2 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1024x512) off_zero]
  simp only [View.readAt_eq_ld, Memref.IsWhole.read_unread, View.ld_unit_zero (S := S1024x512) off_zero]

/-- The last support tile: the output tile is the finished accumulator times the transposed prototype table. -/
theorem output_last (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S512x1000 .bf16) (harg5 : arg5.IsWhole) (arg6 : Memref sig .tc .vmem S1024x1000 .f32) (harg6 : arg6.IsWhole) (arg7 : Memref sig .tc .vmem S1024x512 .f32) (harg7 : arg7.IsWhole) (hc0 : ¬cond0_0 i) (hc1 : cond0_1 i)
    (x0 : Vec F S1024x512 .bf16) (x1 : Vec F S1024x512 .bf16) (x2 : Vec F S1024x512 .bf16) (x3 : Vec F S512x1000 .bf16) (xs0 : Vec F S1024x512 .f32) :
    out0_C_4 (F := F) c i arg2 harg2 arg3 harg3 arg4 harg4 arg5 harg5 arg6 harg6 arg7 harg7 hc0 hc1 x0 x1 x2 x3 xs0 = k0_pay3 (k0_pay2 x0 x1 xs0 x2) x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1024x1000) off_zero]
  simp only [View.readAt_eq_ld, Memref.IsWhole.read_unread, View.ld_unit_zero (S := S1024x512) off_zero,
    View.ld_unit_zero (S := S512x1000) off_zero, View.readCov_unit_zero (S := S1024x512) _ off_zero]

end Cert.KernelIdeal.Pieces

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.LibRowsDot.lean ====
/-
  A product of rows with rows read at an element, on the extended reals.

  For the dimension numbers of a matrix times the transpose of another — `[M, K]` by `[N, K]`, the left operand's
  axis 1 contracted with the right operand's axis 1, no batch axes — the operand indices at output element `(a, b)`
  and contraction coordinate `k` are `(a, k)` and `(b, k)`: row `a` of the left operand meets row `b` of the right
  one. So a product accumulated into the zero splat is, at `(a, b)`, the inner product of the two rows,
  `∑ k : Fin K, lhs (a, k) * rhs (b, k)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a product of rows with rows `[M, K] × [N, K] → [M, N]`: `lhs_contracting = [1]`,
    `rhs_contracting = [1]`, each operand's axis 0 an axis of the result, no batch axes. At a printed record every
    field is `rfl`. -/
structure RowsDot {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

variable {M K N : Nat} {d : DotDims ⟨2, ![M, K]⟩ ⟨2, ![N, K]⟩ ⟨2, ![M, N]⟩}

/-- A product of rows with rows contracts one axis. -/
theorem RowsDot.rank_contr (hd : RowsDot d) : d.contr.rank = 1 := by
  rw [d.rank_contr, hd.lc]; rfl

/-- The contracted axis has extent `K`, the length of a row. -/
theorem RowsDot.size_contr (hd : RowsDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem RowsDot.lhs0 (hd : RowsDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem RowsDot.lhs1 (hd : RowsDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the output's column. -/
theorem RowsDot.rhs0 (hd : RowsDot d) (i : (⟨2, ![M, N]⟩ : Shape).Idx) (q : d.contr.Idx) :
    (d.rhsIdx i q 0).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The right operand's column is the contraction coordinate. -/
theorem RowsDot.rhs1 (hd : RowsDot d) (i : (⟨2, ![M, N]⟩ : Shape).Idx) (q : d.contr.Idx) :
    (d.rhsIdx i q 1).val = (q ⟨0, by rw [hd.rank_contr]; exact Nat.one_pos⟩).val :=
  d.rhsIdx_val_of_single hd.rc i q

/-- The contraction of a product of rows with rows, re-indexed by the contracted coordinate: at output element
    `(a, b)` it is the inner product of row `a` of the left operand and row `b` of the right one,
    `∑ k : Fin K, lhs (a, k) * rhs (b, k)`. -/
theorem RowsDot.sum_contr (hd : RowsDot d) (lhs : (⟨2, ![M, K]⟩ : Shape).Idx → EReal)
    (rhs : (⟨2, ![N, K]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 b k) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 b k :=
    funext fun x => Fin.ext (by
      match x with
      | ⟨0, _⟩ => exact hd.rhs0 _ _
      | ⟨1, _⟩ => exact (hd.rhs1 _ _).trans hk)
  rw [el, er]

/-- A product of rows with rows accumulated into the zero splat, at element `(a, b)`:
    `∑ k, lhs (a, k) * rhs (b, k)`. -/
theorem RowsDot.matmul_zero_apply (hd : RowsDot d) {φ₁ φ₂ : FTy} (prec : Option ContractPrecision)
    (lhs : FVec Ideal ⟨2, ![M, K]⟩ φ₁) (rhs : FVec Ideal ⟨2, ![N, K]⟩ φ₂) (a : Fin M) (b : Fin N) :
    FloatOps.matmul d prec lhs rhs (constant ⟨2, ![M, N]⟩ .f32 0x00000000#32) (ix2 a b)
      = ∑ k : Fin K, lhs (ix2 a k) * rhs (ix2 b k) :=
  (Ideal.matmul_constant_zero_apply d prec lhs rhs (ix2 a b)).trans (hd.sum_contr lhs rhs a b)

/-- The host's `dot_general` of rows with rows at element `(a, b)`: the same sum. -/
theorem RowsDot.dotGeneral_apply (hd : RowsDot d) {φ₁ φ₂ : FTy} (prec : Option ContractPrecision) (sched : HostSchedule)
    (lhs : FVec Ideal ⟨2, ![M, K]⟩ φ₁) (rhs : FVec Ideal ⟨2, ![N, K]⟩ φ₂) (a : Fin M) (b : Fin N) :
    FloatOps.dotGeneral d prec sched lhs rhs (ix2 a b) = ∑ k : Fin K, lhs (ix2 a k) * rhs (ix2 b k) :=
  (Ideal.dotGeneral_apply d prec sched lhs rhs (ix2 a b)).trans (hd.sum_contr lhs rhs a b)

end Cert.Lib

end
-- ==== Proof.Payload.lean ====
/-
  The body's arithmetic at one element, on the extended reals.

  With `x0` a tile of query rows, `x1` a tile of support rows, `x2` the prototype rows of that support tile and
  `x3` the transposed prototype table:
  the zero splat is `0`;
  the accumulator update at `(p, d)` is `acc (p, d) + ∑ r, weight x0 x1 p r * x2 (r, d)`, the tile's weights being
  `exp (⟨x0 p, x1 r⟩ - 1)` (a product of rows with rows, then a plain product, both into the zero splat);
  the final product at `(p, c)` is `∑ d, acc (p, d) * x3 (d, c)`.
  A change of float format is the identity on the extended reals, and a cast to the same shape is the identity.
-/
import proofs.«416455_j25872882991649_1_alg».proof.Proof.Gen.KernelIdeal.Skeleton
import proofs.«416455_j25872882991649_1_alg».proof.Proof.Spec
import proofs.«416455_j25872882991649_1_alg».proof.Proof.LibPlainDot
import proofs.«416455_j25872882991649_1_alg».proof.Proof.LibRowsDot
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The similarity product contracts the row axis of both tiles. -/
theorem dims_sim : Cert.Lib.RowsDot dot_S1024x512_S1024x512_S1024x1024_1_1_0_0_n_n := ⟨rfl, rfl, rfl, rfl, rfl, rfl⟩

/-- The weights-times-prototypes product is a plain product. -/
theorem dims_weighted : Cert.Lib.PlainDot dot_S1024x1024_S1024x512_S1024x512_1_0_0_1_n_n := ⟨rfl, rfl, rfl, rfl, rfl, rfl⟩

/-- The accumulator-times-table product is a plain product. -/
theorem dims_logits : Cert.Lib.PlainDot dot_S1024x512_S512x1000_S1024x1000_1_0_0_1_n_n := ⟨rfl, rfl, rfl, rfl, rfl, rfl⟩

/-- The zero splat is zero everywhere. -/
theorem zero_apply (i : S1024x512.Idx) : (k0_pay1 (F := Ideal) i : EReal) = 0 := by
  unfold k0_pay1
  simp only [shapeCast_self]
  show Ideal.ofBits .f32 0x00000000#32 = 0
  exact Ideal.ofBits_zero_f32

/-- One tile's weight at `(p, r)`: the exponential of the rows' inner product less one. -/
theorem weight_apply (x0 x1 : FVec Ideal S1024x512 .bf16) (p r : Fin 1024) :
    Ideal.exp (FloatOps.matmul (φ₁ := .bf16) (φ₂ := .bf16) dot_S1024x512_S1024x512_S1024x1024_1_1_0_0_n_n none x0 x1
        (constant S1024x1024 .f32 0x00000000#32) (ix2 p r) - Ideal.ofBits .f32 0x3F800000#32)
      = Cert.Attn.weight x0 x1 p r := by
  unfold Cert.Attn.weight
  rw [dims_sim.matmul_zero_apply (φ₁ := .bf16) (φ₂ := .bf16) none x0 x1 p r, Ideal.ofBits_one_f32]

/-- The accumulator update at `(p, d)`. -/
theorem accumulate_apply (x0 x1 x2 : Vec Ideal S1024x512 .bf16) (acc : Vec Ideal S1024x512 .f32)
    (p : Fin 1024) (d : Fin 512) :
    (k0_pay2 (F := Ideal) x0 x1 acc x2 (ix2 p d) : EReal)
      = acc (ix2 p d) + ∑ r : Fin 1024, Cert.Attn.weight x0 x1 p r * x2 (ix2 r d) := by
  unfold k0_pay2
  simp only [shapeCast_self]
  refine (addf_apply _ _ _).trans ?_
  refine congrArg (acc (ix2 p d) + ·) ?_
  refine (dims_weighted.matmul_zero_apply (φ₁ := .bf16) (φ₂ := .bf16) none _ x2 p d).trans ?_
  refine Finset.sum_congr rfl fun r _ => ?_
  refine congrArg (· * x2 (ix2 r d)) ?_
  exact weight_apply x0 x1 p r

/-- The final product at `(p, c)`. -/
theorem logits_apply (acc : Vec Ideal S1024x512 .f32) (x3 : Vec Ideal S512x1000 .bf16) (p : Fin 1024) (c : Fin 1000) :
    (k0_pay3 (F := Ideal) acc x3 (ix2 p c) : EReal) = ∑ d : Fin 512, acc (ix2 p d) * x3 (ix2 d c) := by
  unfold k0_pay3
  simp only [shapeCast_self]
  exact dims_logits.matmul_zero_apply (φ₁ := .bf16) (φ₂ := .bf16) none _ x3 p c

end Cert.KernelIdeal.Payload

end
-- ==== Proof.Fold.lean ====
/-
  The accumulator across a query tile's eight support tiles, and the output tile.

  At a point the accumulator becomes (what the point before left, or zero at the first support tile) plus the
  point's addend `∑ r, weight p r * prototype (r, d)` over the 1024 support rows of its tile. After the eighth
  support tile it holds, at `(p, d)`, the sum of the eight addends, which is the sum over all 8192 support rows:
  the weighted prototype of query row `1024 * (t / 8) + p`. The output tile is that times the transposed table.
-/
import proofs.«416455_j25872882991649_1_alg».proof.Proof.Tiles
import proofs.«416455_j25872882991649_1_alg».proof.Proof.Pieces
import proofs.«416455_j25872882991649_1_alg».proof.Proof.Payload

noncomputable section

open scoped BigOperators

namespace Cert.KernelIdeal.Fold

open Cert.KernelIdeal Cert.KernelIdeal.Gen Cert.KernelIdeal.Tiles Idealize.ShloMosaic Idealize.ShloMosaic.TcCoe
  Idealize.SL.Sem Idealize.ShloMosaic.ValueIdx

variable (m : (ℓ : Loc nD τ sig) → Buf (Elt Ideal) ℓ)

/-! ## One point's step -/

/-- What a point leaves in the accumulator over what the point before left: at a first support tile the zero
    splat updated, elsewhere the earlier contents updated. -/
theorem step_eq (c : Dev nD) (n : ℕ) (hb : n < cfg0.N) (acc : Vec Ideal S1024x512 .f32) :
    Value.scAt0_0 m c n hb acc
      = if n % 8 = 0 then k0_pay2 (iblk m c 0 (⟨n, hb⟩ : Fin cfg0.N)) (iblk m c 1 (⟨n, hb⟩ : Fin cfg0.N)) (k0_pay1 (F := Ideal)) (iblk m c 2 (⟨n, hb⟩ : Fin cfg0.N))
        else k0_pay2 (iblk m c 0 (⟨n, hb⟩ : Fin cfg0.N)) (iblk m c 1 (⟨n, hb⟩ : Fin cfg0.N)) acc (iblk m c 2 (⟨n, hb⟩ : Fin cfg0.N)) := by
  unfold Value.scAt0_0
  by_cases h0 : n % 8 = 0
  · have h1 : ¬n % 8 = 7 := by omega
    rw [dif_pos h0, dif_neg h1, if_pos h0]
    exact Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  · rw [dif_neg h0, if_neg h0]
    by_cases h1 : n % 8 = 7
    · rw [dif_pos h1]
      exact Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc
    · rw [dif_neg h1]
      exact Pieces.scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc

/-- A point's addend to the accumulator at `(p, d)`: its tile's weights against its tile's prototype rows. Past the
    grid it is zero, a value that is never used. -/
def addend (c : Dev nD) (n : ℕ) (i : S1024x512.Idx) : EReal :=
  if h : n < cfg0.N then
    ∑ r : Fin 1024, Cert.Attn.weight (qTile m c ⟨n, h⟩) (kTile m c ⟨n, h⟩) (i 0) r * pTile m c ⟨n, h⟩ (ix2 r (i 1))
  else 0

/-- One point's step at an element. -/
theorem step_apply (c : Dev nD) (n : ℕ) (hb : n < cfg0.N) (acc : S1024x512.Idx → EReal) (i : S1024x512.Idx) :
    (Value.scAt0_0 m c n hb acc i : EReal) = (if n % 8 = 0 then 0 else acc i) + addend m c n i := by
  rw [step_eq m c n hb acc]
  obtain ⟨p, d, rfl⟩ : ∃ (p : Fin 1024) (d : Fin 512), i = ix2 p d := ⟨i 0, i 1, eq_ix2 i⟩
  unfold addend
  rw [dif_pos hb]
  by_cases h0 : n % 8 = 0
  · rw [if_pos h0, if_pos h0]
    refine (Payload.accumulate_apply (iblk m c 0 (⟨n, hb⟩ : Fin cfg0.N)) (iblk m c 1 (⟨n, hb⟩ : Fin cfg0.N)) (iblk m c 2 (⟨n, hb⟩ : Fin cfg0.N)) (k0_pay1 (F := Ideal)) p d).trans ?_
    rw [Payload.zero_apply]
  · rw [if_neg h0, if_neg h0]
    exact Payload.accumulate_apply (iblk m c 0 (⟨n, hb⟩ : Fin cfg0.N)) (iblk m c 1 (⟨n, hb⟩ : Fin cfg0.N)) (iblk m c 2 (⟨n, hb⟩ : Fin cfg0.N)) acc p d

/-! ## The accumulator after a point -/

/-- After point `t` the accumulator holds the sum of the addends of the points of its query tile up to `t`. -/
theorem scratch_after (c : Dev nD) (t : Fin cfg0.N) (i : S1024x512.Idx) :
    ((outsAt0 m c t.val t.isLt).2 i : EReal)
      = 0 + ∑ s ∈ Finset.range (t.val % 8 + 1), addend m c (8 * (t.val / 8) + s) i := by
  rw [Value.soutsAt0_0_eq m c t]
  have hlt := lt32 t
  refine Pipeline.accAt_add_apply (ι := S1024x512.Idx) (β := EReal) _ _ (fun _ => 0) (addend m c) (8 * (t.val / 8)) 7
    (fun h i => ?_) (fun n h acc i hlo hhi => ?_) (t.val % 8) (by omega) _ i
  · rw [step_apply m c _ h _ i, if_pos (by omega)]
  · rw [step_apply m c n h acc i, if_neg (by omega)]

/-! ## The addend over the whole arrays -/

/-- The addend of point `n` at `(p, d)`: query row `1024 * (n / 8) + p` against support rows `1024 * (n % 8) + r`. -/
theorem addend_eq (c : Dev nD) (n : ℕ) (hn : n < cfg0.N) (p : Fin 1024) (d : Fin 512) :
    addend m c n (ix2 p d)
      = ∑ r : Fin 1024,
          Cert.Attn.weight (qArr m c) (kArr m c)
            (⟨1024 * (n / 8) + p.val, Cert.Attn.block_lt (H := 4) (qt_lt ⟨n, hn⟩) p⟩ : Fin 4096)
            (⟨1024 * (n % 8) + r.val, Cert.Attn.block_lt (H := 8) (st_lt ⟨n, hn⟩) r⟩ : Fin 8192)
          * pArr m c (ix2 (⟨1024 * (n % 8) + r.val, Cert.Attn.block_lt (H := 8) (st_lt ⟨n, hn⟩) r⟩ : Fin 8192) d) := by
  unfold addend
  rw [dif_pos hn]
  refine Finset.sum_congr rfl fun r _ => ?_
  rw [Cert.Attn.weight_congr (qTile m c ⟨n, hn⟩) (kTile m c ⟨n, hn⟩) (qArr m c) (kArr m c) p r _ _
      (fun e => qTile_apply m c ⟨n, hn⟩ p e) (fun e => kTile_apply m c ⟨n, hn⟩ r e),
    pTile_apply m c ⟨n, hn⟩ r d]

/-- After the last support tile the accumulator holds the weighted prototypes of its query rows. -/
theorem weighted_row (c : Dev nD) (t : Fin cfg0.N) (h7 : t.val % 8 = 7) (p : Fin 1024) (d : Fin 512) :
    ((outsAt0 m c t.val t.isLt).2 (ix2 p d) : EReal)
      = Cert.Attn.weighted (qArr m c) (kArr m c) (pArr m c)
          (⟨1024 * (t.val / 8) + p.val, Cert.Attn.block_lt (H := 4) (qt_lt t) p⟩ : Fin 4096) d := by
  have hlt := lt32 t
  rw [scratch_after m c t (ix2 p d), zero_add, h7]
  unfold Cert.Attn.weighted
  refine Cert.Attn.sum_range_blocks (H := 8) (B := 1024)
    (fun s' => Cert.Attn.weight (qArr m c) (kArr m c)
      (⟨1024 * (t.val / 8) + p.val, Cert.Attn.block_lt (H := 4) (qt_lt t) p⟩ : Fin 4096) s' * pArr m c (ix2 s' d))
    (fun s => addend m c (8 * (t.val / 8) + s) (ix2 p d)) (fun s hs => ?_)
  have hn : 8 * (t.val / 8) + s < cfg0.N := lt_of_lt_of_eq (by omega) (show 32 = cfg0.N from N_0.symm)
  rw [addend_eq m c _ hn p d]
  refine Finset.sum_congr rfl fun r _ => ?_
  have ea : (⟨1024 * ((8 * (t.val / 8) + s) / 8) + p.val, Cert.Attn.block_lt (H := 4) (qt_lt ⟨_, hn⟩) p⟩ : Fin 4096)
      = ⟨1024 * (t.val / 8) + p.val, Cert.Attn.block_lt (H := 4) (qt_lt t) p⟩ := Fin.ext (by
    show 1024 * ((8 * (t.val / 8) + s) / 8) + p.val = 1024 * (t.val / 8) + p.val; omega)
  have es : (⟨1024 * ((8 * (t.val / 8) + s) % 8) + r.val, Cert.Attn.block_lt (H := 8) (st_lt ⟨_, hn⟩) r⟩ : Fin 8192)
      = ⟨1024 * s + r.val, Cert.Attn.block_lt (H := 8) hs r⟩ := Fin.ext (by
    show 1024 * ((8 * (t.val / 8) + s) % 8) + r.val = 1024 * s + r.val; omega)
  rw [ea, es]

/-! ## The output tile -/

/-- At the last support tile the stored output tile is, at `(p, k)`, the weighted prototype of query row
    `1024 * (t / 8) + p` against column `k` of the transposed table. -/
theorem out_tile (c : Dev nD) (t : Fin cfg0.N) (h0 : ¬t.val % 8 = 0) (h1 : t.val % 8 = 7)
    (hc0 : ¬cond0_0 (grid0.coords t)) (hc1 : cond0_1 (grid0.coords t)) (y : S1024x1000.Idx) :
    (out0_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t)
        (outsAt0 m c (t.val - 1) (Nat.lt_of_le_of_lt (Nat.sub_le _ _) t.isLt)).2 y : EReal)
      = ∑ d : Fin 512,
          Cert.Attn.weighted (qArr m c) (kArr m c) (pArr m c)
            (⟨1024 * (t.val / 8) + (y 0).val, Cert.Attn.block_lt (H := 4) (qt_lt t) (y 0)⟩ : Fin 4096) d
          * tArr m c (ix2 d (y 1)) := by
  rw [Pieces.output_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t)
    (outsAt0 m c (t.val - 1) (Nat.lt_of_le_of_lt (Nat.sub_le _ _) t.isLt)).2]
  have hs : k0_pay2 (F := Ideal) (iblk m c 0 t) (iblk m c 1 t)
      (outsAt0 m c (t.val - 1) (Nat.lt_of_le_of_lt (Nat.sub_le _ _) t.isLt)).2 (iblk m c 2 t)
      = (outsAt0 m c t.val t.isLt).2 := by
    rw [outsAt0_C m c t h0 h1]
    dsimp only
    exact (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t)
      (outsAt0 m c (t.val - 1) (Nat.lt_of_le_of_lt (Nat.sub_le _ _) t.isLt)).2).symm
  rw [hs]
  obtain ⟨p, k, rfl⟩ : ∃ (p : Fin 1024) (k : Fin 1000), y = ix2 p k := ⟨y 0, y 1, eq_ix2 y⟩
  refine (Payload.logits_apply _ (iblk m c 3 t) p k).trans ?_
  refine Finset.sum_congr rfl fun d _ => ?_
  rw [weighted_row m c t h1 p d]
  exact congrArg (_ * ·) (tTile_apply m c t d k)

end Cert.KernelIdeal.Fold

end
-- ==== Proof.TakeFill.lean ====
/-
  Class labels in range, and a gather with fill at such labels.

  A label word `v` with `0 ≤ v` and `v < 1000` as signed numbers is a natural number below 1000. On such a word the
  wrap of a negative index changes nothing, and the in-range test `0 ≤ v ∧ v ≤ 999` that guards a gather with fill
  is true; so the fill is never taken and the gather with fill is the plain gather.
  An `and`-reduction from 1 over words that are all 1 is 1.
-/
import Idealize.ShloMosaic.Lib.ReduceAll
import Idealize.ShloMosaic.Lib.StableHlo.Predicate
import Idealize.ShloMosaic.Lib.ValueIdx

namespace Cert.Take

open Idealize.ShloMosaic
open Idealize.ShloMosaic.StableHlo.Predicate (sle_iff_toNat sge_iff_toNat)

/-- A word that is at least 0 and below 1000 as a signed number is a natural number below 1000. -/
theorem small_of_cmp (v : BitVec 32) (h0 : IntOp.cmpi .sge v 0#32 = 1#1) (h1 : IntOp.cmpi .slt v 1000#32 = 1#1) :
    v.toNat < 1000 := by
  rw [IntOp.cmpi_sge] at h0
  rw [IntOp.cmpi_slt] at h1
  have e0 : (0#32 : BitVec 32).toInt = 0 := by decide
  have e1 : (1000#32 : BitVec 32).toInt = 1000 := by decide
  rw [e0] at h0
  rw [e1] at h1
  have hc := BitVec.toInt_eq_toNat_cond v
  have hl := v.isLt
  split at hc <;> omega

/-- The in-range test of a word below 1000: it is at least 0 and at most 999. -/
theorem inrange_one (v : BitVec 32) (hv : v.toNat < 1000) :
    IntOp.andi (IntOp.cmpi .sge v 0#32) (IntOp.cmpi .sle v 999#32) = 1#1 := by
  rw [IntOp.andi_eq_one]
  have h999 : (999#32 : BitVec 32).toNat = 999 := by decide
  refine ⟨(sge_iff_toNat (by omega) (by decide)).2 (by simp), (sle_iff_toNat (by omega) (by decide)).2 ?_⟩
  rw [h999]; omega

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    have e : IntOp.andi 1#1 1#1 = 1#1 := by decide
    rw [e]
    exact foldl_andi_one f l fun n hn => h n (List.mem_cons_of_mem _ hn)

/-- An `and`-reduction from an initial 1 over an array of 1s is 1 at every index. -/
theorem reduce_andi_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_one x _ fun n _ => hx n

/-- A selection whose mask is 1 everywhere takes its first branch everywhere. -/
theorem select_all_one {s : Shape} {α : Type} (c : IVec s 1) (a b : s.Idx → α) (hc : ∀ i, c i = 1#1) :
    select c a b = a := by
  funext i
  rw [ValueIdx.select_apply, hc i]
  exact ValueIdx.select_one _ _

end Cert.Take
-- ==== Proof.LibWordDiv.lean ====
/-
  Signed 32-bit word arithmetic on non-negative words.

  A word below 2³¹ is non-negative as a signed number, and on such words (with a positive divisor below 2³¹) the
  signed quotient and remainder are the quotient and remainder of the values as natural numbers. jnp's floor
  division and remainder are the truncated ones followed by a correction that applies only when signs differ; on
  non-negative words the correction never applies, so they too are the natural-number quotient and remainder.
  The same holds for the wrap of a negative index (nothing to wrap), the clip below at zero (nothing to clip) and
  the comparison of a position with a total (the comparison of the values).
-/
import Idealize.ShloMosaic.PureOps.Vector
import Idealize.ShloMosaic.PureOps.ShapeOps
import Idealize.ShloMosaic.Lib.StableHlo.Predicate

namespace Cert.LibWordDiv

open Idealize.ShloMosaic
open Idealize.ShloMosaic.StableHlo.Predicate (slt_iff_toNat sge_iff_toNat cmpi_eq_iff ofBool_eq_one_iff)

/-! ## Words -/

/-- A word below 2³¹ has its top bit clear. -/
theorem msb_false_of_lt {a : BitVec 32} (ha : a.toNat < 2 ^ 31) : a.msb = false :=
  BitVec.msb_eq_false_iff_two_mul_lt.mpr (by omega)

/-- Selecting on the zero bit takes the second branch. -/
theorem select_zero {α : Type} (a b : α) : Scalar.select 0#1 a b = b := by
  simp [Scalar.select]

/-- Selecting on the one bit takes the first branch. -/
theorem select_one {α : Type} (a b : α) : Scalar.select 1#1 a b = a := by
  simp [Scalar.select]

/-- A positive divisor below 2³¹ and a dividend below 2³¹ are not at the signed-division corner. -/
theorem not_corner (v d : BitVec 32) (hd0 : 0 < d.toNat) (hd : d.toNat < 2 ^ 31) : ¬ IntOp.SDivCorner v d := by
  rintro (hc | ⟨_, hc⟩)
  · rw [hc] at hd0; simp at hd0
  · rw [hc] at hd; revert hd; decide

/-- Signed division of a word below 2³¹ by a positive word below 2³¹ is the quotient of the values. -/
theorem divsi_host_eq (v d : BitVec 32) (hv : v.toNat < 2 ^ 31) (hd0 : 0 < d.toNat) (hd : d.toNat < 2 ^ 31) :
    IntOp.divsi .host v d = BitVec.ofNat 32 (v.toNat / d.toNat) := by
  have hle : v.toNat / d.toNat ≤ v.toNat := Nat.div_le_self _ _
  simp only [IntOp.divsi, if_neg (not_corner v d hd0 hd), BitVec.sdiv_eq, msb_false_of_lt hv, msb_false_of_lt hd,
    BitVec.udiv_eq]
  apply BitVec.eq_of_toNat_eq
  rw [BitVec.toNat_udiv, BitVec.toNat_ofNat, Nat.mod_eq_of_lt (by omega)]

/-- Signed remainder of a word below 2³¹ by a positive word below 2³¹ is the remainder of the values. -/
theorem remsi_host_eq (v d : BitVec 32) (hv : v.toNat < 2 ^ 31) (hd0 : 0 < d.toNat) (hd : d.toNat < 2 ^ 31) :
    IntOp.remsi .host v d = BitVec.ofNat 32 (v.toNat % d.toNat) := by
  have hlt : v.toNat % d.toNat < d.toNat := Nat.mod_lt _ hd0
  simp only [IntOp.remsi, if_neg (not_corner v d hd0 hd), BitVec.srem_eq, msb_false_of_lt hv, msb_false_of_lt hd,
    BitVec.umod_eq]
  apply BitVec.eq_of_toNat_eq
  rw [BitVec.toNat_umod, BitVec.toNat_ofNat, Nat.mod_eq_of_lt (a := v.toNat % d.toNat) (b := 2 ^ 32) (by omega)]

/-- The sign word of a word: 0 for zero, −1 for a negative word, 1 for a positive one. -/
def signW (x : BitVec 32) : BitVec 32 := if x = 0 then 0 else if x.msb then -1 else 1

/-- The sign word of a positive word below 2³¹ is 1. -/
theorem signW_pos (x : BitVec 32) (h0 : 0 < x.toNat) (h : x.toNat < 2 ^ 31) : signW x = 1 := by
  have hx : ¬ x = 0#32 := by rintro rfl; simp at h0
  simp [signW, hx, msb_false_of_lt h]

/-- jnp's floor division at one element, operation by operation: the truncated quotient, lowered by one where the
signs of dividend and divisor differ and the remainder is not zero. -/
def floorDivW (v d : BitVec 32) : BitVec 32 :=
  Scalar.select
    (IntOp.andi (IntOp.cmpi .ne (signW v) (signW d)) (IntOp.cmpi .ne (IntOp.remsi .host v d) 0#32))
    (IntOp.subi (IntOp.divsi .host v d) 1#32) (IntOp.divsi .host v d)

/-- jnp's remainder at one element, operation by operation: a zero divisor is replaced by one; the truncated
remainder, raised by the divisor where its sign differs from the divisor's and it is not zero. -/
def remainderW (v d : BitVec 32) : BitVec 32 :=
  let d' := Scalar.select (IntOp.cmpi .eq d 0#32) 1#32 d
  let r := IntOp.remsi .host v d'
  Scalar.select
    (IntOp.andi (IntOp.cmpi .ne (IntOp.cmpi .slt r 0#32) (IntOp.cmpi .slt d' 0#32)) (IntOp.cmpi .ne r 0#32))
    (IntOp.addi r d') r

/-- Floor division of a word below 2³¹ by a positive word below 2³¹ is the quotient of the values: no correction
is made, because either the signs agree or the dividend (hence the remainder) is zero. -/
theorem floorDivW_eq (v d : BitVec 32) (hv : v.toNat < 2 ^ 31) (hd0 : 0 < d.toNat) (hd : d.toNat < 2 ^ 31) :
    floorDivW v d = BitVec.ofNat 32 (v.toNat / d.toNat) := by
  have hcond : IntOp.andi (IntOp.cmpi .ne (signW v) (signW d)) (IntOp.cmpi .ne (IntOp.remsi .host v d) 0#32) = 0#1 := by
    rw [signW_pos d hd0 hd, remsi_host_eq v d hv hd0 hd]
    by_cases hz : v.toNat = 0
    · have : IntOp.cmpi .ne (BitVec.ofNat 32 (v.toNat % d.toNat)) 0#32 = 0#1 := by
        rw [hz, Nat.zero_mod]; decide
      rw [this]; simp [IntOp.andi]
    · have : IntOp.cmpi .ne (signW v) 1 = 0#1 := by
        rw [signW_pos v (by omega) hv]; decide
      rw [this]; simp [IntOp.andi]
  unfold floorDivW
  rw [hcond, select_zero, divsi_host_eq v d hv hd0 hd]

/-- The remainder of a word below 2³¹ by a positive word below 2³¹ is the remainder of the values: the divisor is
not zero, and no correction is made because remainder and divisor are both non-negative. -/
theorem remainderW_eq (v d : BitVec 32) (hv : v.toNat < 2 ^ 31) (hd0 : 0 < d.toNat) (hd : d.toNat < 2 ^ 31) :
    remainderW v d = BitVec.ofNat 32 (v.toNat % d.toNat) := by
  have hdne : d ≠ 0#32 := by rintro rfl; simp at hd0
  have hd' : Scalar.select (IntOp.cmpi .eq d 0#32) 1#32 d = d := by
    have : IntOp.cmpi .eq d 0#32 = 0#1 := by
      simp only [IntOp.cmpi]
      have : (d == 0#32) = false := by simpa using hdne
      rw [this]; rfl
    rw [this, select_zero]
  have hr : IntOp.remsi .host v d = BitVec.ofNat 32 (v.toNat % d.toNat) := remsi_host_eq v d hv hd0 hd
  have hrlt : (BitVec.ofNat 32 (v.toNat % d.toNat)).toNat < 2 ^ 31 := by
    have := Nat.mod_lt v.toNat hd0
    rw [BitVec.toNat_ofNat, Nat.mod_eq_of_lt (a := v.toNat % d.toNat) (b := 2 ^ 32) (by omega)]; omega
  have hneg (a : BitVec 32) (ha : a.toNat < 2 ^ 31) : IntOp.cmpi .slt a 0#32 = 0#1 := by
    have h := (slt_iff_toNat (a := a) (b := 0#32) ha (by decide)).not
    have h1 : ¬ IntOp.cmpi .slt a 0#32 = 1#1 := h.mpr (by simp)
    revert h1; generalize IntOp.cmpi .slt a 0#32 = c; revert c; decide
  unfold remainderW
  simp only [hd', hr, hneg _ hrlt, hneg d hd]
  have : IntOp.cmpi .ne (0#1) (0#1) = 0#1 := by decide
  rw [this]
  simp [IntOp.andi, select_zero]

/-- A word below 2³¹ is not below zero as a signed number. -/
theorem slt_zero_false (a : BitVec 32) (ha : a.toNat < 2 ^ 31) : a.slt 0#32 = false := by
  have h := StableHlo.Predicate.slt_bool_iff_toNat (a := a) (b := 0#32) ha (by decide)
  cases hb : a.slt 0#32
  · rfl
  · rw [hb] at h
    exact absurd (h.mp rfl) (by simp)

/-- The signed comparison "below zero" of a word below 2³¹ is the zero bit. -/
theorem cmpi_slt_zero (a : BitVec 32) (ha : a.toNat < 2 ^ 31) : IntOp.cmpi .slt a 0#32 = 0#1 := by
  simp only [IntOp.cmpi, slt_zero_false a ha]; rfl

/-- The wrap of a negative index (add c where the word is below zero) leaves a word below 2³¹ as it is. -/
theorem wrapW_eq (v c : BitVec 32) (hv : v.toNat < 2 ^ 31) :
    Scalar.select (IntOp.cmpi .slt v 0#32) (IntOp.addi v c) v = v := by
  rw [cmpi_slt_zero v hv, select_zero]

/-- The signed maximum of zero and a word below 2³¹ is the word. -/
theorem maxsi_zero_left (v : BitVec 32) (hv : v.toNat < 2 ^ 31) : IntOp.maxsi 0#32 v = v := by
  simp [IntOp.maxsi, slt_zero_false v hv]

/-- Selecting on the signed comparison "position k at least the total", for a position and a total below 2³¹, is
selecting on the comparison of the values. -/
theorem fillW_eq {α : Type} (k : ℕ) (hk : k < 2 ^ 31) (total : BitVec 32) (ht : total.toNat < 2 ^ 31) (f x : α) :
    Scalar.select (IntOp.cmpi .sge (BitVec.ofNat 32 k) total) f x = if total.toNat ≤ k then f else x := by
  have hk' : (BitVec.ofNat 32 k).toNat = k := by rw [BitVec.toNat_ofNat]; exact Nat.mod_eq_of_lt (by omega)
  have h := sge_iff_toNat (a := BitVec.ofNat 32 k) (b := total) (by omega) ht
  rw [hk'] at h
  by_cases hle : total.toNat ≤ k
  · rw [h.mpr hle, select_one, if_pos hle]
  · have h1 : ¬ IntOp.cmpi .sge (BitVec.ofNat 32 k) total = 1#1 := fun hc => hle (h.mp hc)
    have h0 : IntOp.cmpi .sge (BitVec.ofNat 32 k) total = 0#1 := by
      revert h1; generalize IntOp.cmpi .sge (BitVec.ofNat 32 k) total = c; revert c; decide
    rw [h0, select_zero, if_neg hle]

/-! ## Vectors: the helpers operation by operation, and their values -/

/-- The shape of a scalar. -/
abbrev S0 : Shape := ⟨0, ![]⟩

/-- The one index of a scalar. -/
def i0 : S0.Idx := fun a => a.elim0

/-- A scalar broadcast to any shape reads the scalar at every index. -/
theorem bcast0_apply {α : Type} {t : Shape} (bc : S0.BroadcastsInDim t ![]) (x : S0.Idx → α) (j : t.Idx) :
    broadcastInDim t ![] bc x j = x i0 := by
  simp only [broadcastInDim]
  congr 1
  funext a
  exact a.elim0

variable {t : Shape} (bc : S0.BroadcastsInDim t ![])

/-- jnp's floor division of a vector by a scalar, operation by operation. -/
def floorDivide (v : IVec t 32) (d : IVec S0 32) : IVec t 32 :=
  let v0 := broadcastInDim t ![] bc d
  let v1 := Host.divsi v v0
  let v2 := signi v
  let v3 := signi d
  let v4 := broadcastInDim t ![] bc v3
  let v5 := cmpi .ne v2 v4
  let v6 := broadcastInDim t ![] bc d
  let v7 := Host.remsi v v6
  let c := constantI S0 32 0#32
  let v8 := broadcastInDim t ![] bc c
  let v9 := cmpi .ne v7 v8
  let v10 := andi v5 v9
  let c_0 := constantI S0 32 1#32
  let v11 := broadcastInDim t ![] bc c_0
  let v12 := subi v1 v11
  select v10 v12 v1

/-- jnp's remainder of a vector by a scalar, operation by operation. -/
def remainder (v : IVec t 32) (d : IVec S0 32) : IVec t 32 :=
  let v0 : IVec S0 32 := id d
  let c := constantI S0 32 0#32
  let v1 := cmpi .eq v0 c
  let c_0 := constantI S0 32 1#32
  let v2 := select v1 c_0 v0
  let v3 := broadcastInDim t ![] bc v2
  let v4 := Host.remsi v v3
  let c_1 := constantI S0 32 0#32
  let v5 := broadcastInDim t ![] bc c_1
  let v6 := cmpi .ne v4 v5
  let c_2 := constantI S0 32 0#32
  let v7 := broadcastInDim t ![] bc c_2
  let v8 := cmpi .slt v4 v7
  let c_3 := constantI S0 32 0#32
  let v9 := cmpi .slt v2 c_3
  let v10 := broadcastInDim t ![] bc v9
  let v11 := cmpi .ne v8 v10
  let v12 := andi v11 v6
  let v13 := broadcastInDim t ![] bc v2
  let v14 := addi v4 v13
  select v12 v14 v4

/-- The selection between a broadcast scalar and a vector, operation by operation. -/
def where4 (c : IVec t 1) (f : IVec S0 32) (x : IVec t 32) : IVec t 32 :=
  let v0 : IVec S0 32 := id f
  let v1 := broadcastInDim t ![] bc v0
  select c v1 x

/-- The clip below at a scalar, operation by operation. -/
def clipLo (v : IVec t 32) (lo : IVec S0 32) : IVec t 32 :=
  let v0 : IVec S0 32 := id lo
  let v1 := broadcastInDim t ![] bc v0
  maxsi v1 v

/-- The wrap of negative indices by a constant c, operation by operation. -/
def wrapNeg (v : IVec t 32) (c : BitVec 32) : IVec t 32 :=
  let z := broadcastInDim t ![] bc (constantI S0 32 0#32)
  let m := cmpi .slt v z
  let cc := broadcastInDim t ![] bc (constantI S0 32 c)
  let s := addi v cc
  select m s v

/-- Floor division of a vector by a scalar is, at each index, the one-element floor division. -/
theorem floorDivide_apply (v : IVec t 32) (d : IVec S0 32) (j : t.Idx) :
    floorDivide bc v d j = floorDivW (v j) (d i0) := by
  simp only [floorDivide, floorDivW, select, andi, cmpi, signi, signW, Host.divsi, Host.remsi, subi, constantI,
    bcast0_apply]

/-- The remainder of a vector by a scalar is, at each index, the one-element remainder. -/
theorem remainder_apply (v : IVec t 32) (d : IVec S0 32) (j : t.Idx) :
    remainder bc v d j = remainderW (v j) (d i0) := by
  simp only [remainder, remainderW, select, andi, addi, cmpi, Host.remsi, constantI, bcast0_apply, id]

/-- The selection between a broadcast scalar and a vector is the selection at each index. -/
theorem where4_apply (c : IVec t 1) (f : IVec S0 32) (x : IVec t 32) (j : t.Idx) :
    where4 bc c f x j = Scalar.select (c j) (f i0) (x j) := by
  simp only [where4, select, bcast0_apply, id]

/-- Floor division of a vector of words below 2³¹ by a positive scalar below 2³¹: the quotient of the values. -/
theorem floorDivide_eq (v : IVec t 32) (d : IVec S0 32) (hv : ∀ j, (v j).toNat < 2 ^ 31)
    (hd0 : 0 < (d i0).toNat) (hd : (d i0).toNat < 2 ^ 31) :
    floorDivide bc v d = fun j => BitVec.ofNat 32 ((v j).toNat / (d i0).toNat) := by
  funext j
  rw [floorDivide_apply, floorDivW_eq _ _ (hv j) hd0 hd]

/-- The remainder of a vector of words below 2³¹ by a positive scalar below 2³¹: the remainder of the values. -/
theorem remainder_eq (v : IVec t 32) (d : IVec S0 32) (hv : ∀ j, (v j).toNat < 2 ^ 31)
    (hd0 : 0 < (d i0).toNat) (hd : (d i0).toNat < 2 ^ 31) :
    remainder bc v d = fun j => BitVec.ofNat 32 ((v j).toNat % (d i0).toNat) := by
  funext j
  rw [remainder_apply, remainderW_eq _ _ (hv j) hd0 hd]

/-- Clipping a vector of words below 2³¹ below at zero changes nothing. -/
theorem clipLo_zero_eq (v : IVec t 32) (hv : ∀ j, (v j).toNat < 2 ^ 31) :
    clipLo bc v (constantI S0 32 0#32) = v := by
  funext j
  simp only [clipLo, maxsi, bcast0_apply, id, constantI]
  exact maxsi_zero_left _ (hv j)

/-- Wrapping the negative entries of a vector of words below 2³¹ changes nothing. -/
theorem wrapNeg_eq (v : IVec t 32) (c : BitVec 32) (hv : ∀ j, (v j).toNat < 2 ^ 31) :
    wrapNeg bc v c = v := by
  funext j
  simp only [wrapNeg, select, cmpi, addi, bcast0_apply, constantI]
  exact wrapW_eq _ _ (hv j)

/-- The fill past a total, operation by operation: where the position is at least the total (signed comparison
against the broadcast total), the broadcast scalar f; elsewhere the vector x. -/
def fillFrom {n : ℕ} (bc : S0.BroadcastsInDim ⟨1, ![n]⟩ ![]) (total f : IVec S0 32) (x : IVec ⟨1, ![n]⟩ 32) :
    IVec ⟨1, ![n]⟩ 32 :=
  let v18 := iotaInDim ⟨1, ![n]⟩ 32 0
  let v21 := broadcastInDim ⟨1, ![n]⟩ ![] bc total
  let v22 := cmpi .sge v18 v21
  where4 bc v22 f x

/-- For a vector of at most 2³¹ entries and a total below 2³¹, the fill past the total is: at a position at least
the total, the scalar f; before it, the vector's own entry. -/
theorem fillFrom_apply {n : ℕ} (bc : S0.BroadcastsInDim ⟨1, ![n]⟩ ![]) (total f : IVec S0 32)
    (x : IVec ⟨1, ![n]⟩ 32) (hn : n ≤ 2 ^ 31) (ht : (total i0).toNat < 2 ^ 31) (j : (⟨1, ![n]⟩ : Shape).Idx) :
    fillFrom bc total f x j = if (total i0).toNat ≤ (j 0).val then f i0 else x j := by
  have hj : (j 0).val < n := (j 0).isLt
  simp only [fillFrom, where4_apply, cmpi, iotaInDim]
  rw [bcast0_apply bc total j]
  exact fillW_eq (j 0).val (by omega) (total i0) ht (f i0) (x j)

/-! ## Constant divisors -/

/-- The value of a small natural number written as a word is the number. -/
theorem toNat_ofNat_of_lt (a : ℕ) (ha : a < 2 ^ 31) : (BitVec.ofNat 32 a).toNat = a := by
  rw [BitVec.toNat_ofNat]; exact Nat.mod_eq_of_lt (by omega)

/-- Floor division of a vector of words below 2³¹ by a positive constant below 2³¹. -/
theorem floorDivide_const_eq (v : IVec t 32) (c : BitVec 32) (hv : ∀ j, (v j).toNat < 2 ^ 31)
    (hc0 : 0 < c.toNat) (hc : c.toNat < 2 ^ 31) :
    floorDivide bc v (constantI S0 32 c) = fun j => BitVec.ofNat 32 ((v j).toNat / c.toNat) :=
  floorDivide_eq bc v (constantI S0 32 c) hv hc0 hc

/-- The remainder of a vector of words below 2³¹ by a positive constant below 2³¹. -/
theorem remainder_const_eq (v : IVec t 32) (c : BitVec 32) (hv : ∀ j, (v j).toNat < 2 ^ 31)
    (hc0 : 0 < c.toNat) (hc : c.toNat < 2 ^ 31) :
    remainder bc v (constantI S0 32 c) = fun j => BitVec.ofNat 32 ((v j).toNat % c.toNat) :=
  remainder_eq bc v (constantI S0 32 c) hv hc0 hc

/-- Floor division of a vector of words below 2³¹ by one is the vector. -/
theorem floorDivide_one_eq (v : IVec t 32) (hv : ∀ j, (v j).toNat < 2 ^ 31) :
    floorDivide bc v (constantI S0 32 1#32) = v := by
  rw [floorDivide_const_eq bc v 1#32 hv (by decide) (by decide)]
  funext j
  apply BitVec.eq_of_toNat_eq
  have h1 : (1#32 : BitVec 32).toNat = 1 := by decide
  rw [h1, Nat.div_one, toNat_ofNat_of_lt _ (hv j)]

/-- Row of a flat position: the floor division by 4096 followed by the remainder by 4096 of a vector of words
below 2³¹ is, at each index, the value divided by 4096 and reduced modulo 4096. -/
theorem rowOf_eq (v : IVec t 32) (hv : ∀ j, (v j).toNat < 2 ^ 31) :
    remainder bc (floorDivide bc v (constantI S0 32 4096#32)) (constantI S0 32 4096#32)
      = fun j => BitVec.ofNat 32 ((v j).toNat / 4096 % 4096) := by
  have h4 : (4096#32 : BitVec 32).toNat = 4096 := by decide
  rw [floorDivide_const_eq bc v 4096#32 hv (by decide) (by decide)]
  have hq : ∀ j, (BitVec.ofNat 32 ((v j).toNat / (4096#32 : BitVec 32).toNat)).toNat < 2 ^ 31 := by
    intro j
    have := hv j
    rw [h4, toNat_ofNat_of_lt _ (by omega)]; omega
  rw [remainder_const_eq bc _ 4096#32 hq (by decide) (by decide)]
  funext j
  have := hv j
  rw [h4, toNat_ofNat_of_lt _ (by omega)]

/-- Column of a flat position: the floor division by one followed by the remainder by 4096 of a vector of words
below 2³¹ is, at each index, the value reduced modulo 4096. -/
theorem colOf_eq (v : IVec t 32) (hv : ∀ j, (v j).toNat < 2 ^ 31) :
    remainder bc (floorDivide bc v (constantI S0 32 1#32)) (constantI S0 32 4096#32)
      = fun j => BitVec.ofNat 32 ((v j).toNat % 4096) := by
  have h4 : (4096#32 : BitVec 32).toNat = 4096 := by decide
  rw [floorDivide_one_eq bc v hv, remainder_const_eq bc v 4096#32 hv (by decide) (by decide), h4]

end Cert.LibWordDiv
-- ==== Proof.Entry.lean ====
/-
  What the region finds in its four input arrays.

  Before the region the program normalises the query rows and the support rows, gathers a prototype row per support
  row, and transposes the prototype table; each result is cast to bf16, which is the identity on the extended
  reals. The normalised rows, the gathered rows and the transposed table are the very terms the reference computes
  (named here by the reference's own stages), with one difference: the program's gather fills a row with a
  not-a-number where the label, after the wrap of negative labels, is outside `0 … 999`. When every label is a
  natural number below 1000 the wrap changes nothing, the in-range test is true of every row, the fill is never
  taken, and the gathered rows are the reference's.
-/
import proofs.«416455_j25872882991649_1_alg».proof.Proof.Gen.KernelIdeal.Frame
import proofs.«416455_j25872882991649_1_alg».proof.Proof.Gen.ReferenceIdeal.Read
import proofs.«416455_j25872882991649_1_alg».proof.Proof.TakeFill
import proofs.«416455_j25872882991649_1_alg».proof.Proof.LibWordDiv
import Idealize.ShloMosaic.Lib.StableHlo.Run

noncomputable section

namespace Cert.KernelIdeal.Entry

open Cert.KernelIdeal Cert.KernelIdeal.Gen Idealize.ShloMosaic Idealize.ShloMosaic.TcCoe Idealize.SL.Sem
  Idealize.ShloMosaic.StableHlo

/-! ## Labels below 1000 -/

/-- The wrap of negative labels leaves labels below 1000 as they are. -/
theorem wrapped_eq (a3 : IVec S8192 32) (hr : ∀ j, (a3 j).toNat < 1000) :
    Cert.ReferenceIdeal.Read.val_main_v21 (F := Ideal) a3 = a3 :=
  Cert.LibWordDiv.wrapNeg_eq (t := S8192) bcast_S_S8192 a3 1000#32 fun j => by have := hr j; omega

/-- The in-range test of the gather with fill, as the program computes it: per support row, whether the wrapped
    label lies in `0 … 999`, spread over the row. -/
def fillMask (a3 : IVec S8192 32) : IVec S8192x512 1 :=
  broadcastInDim S8192x512 ![0] bcast_S8192_S8192x512_0
    (Host.reduce IntOp.andi
      (andi
        (cmpi .sge (Cert.ReferenceIdeal.Read.val_main_v22 (F := Ideal) a3)
          (broadcastInDim S8192x1 ![] bcast_S_S8192x1 (constantI S_ 32 0#32)))
        (cmpi .sle (Cert.ReferenceIdeal.Read.val_main_v22 (F := Ideal) a3)
          (broadcastInDim S8192x1 ![0, 1] bcast_S1x1_S8192x1_0_1
            (broadcastInDim S1x1 ![1] bcast_S1_S1x1_1 (constantI S1 32 999#32)))))
      (constantI S_ 1 1#1) reducesTo_S8192x1_S8192_d1 h_S_)

/-- With every label below 1000 the in-range test is true of every row. -/
theorem fillMask_one (a3 : IVec S8192 32) (hr : ∀ j, (a3 j).toNat < 1000) (i : S8192x512.Idx) :
    fillMask a3 i = 1#1 := by
  show Host.reduce IntOp.andi _ _ _ _ _ = 1#1
  refine Cert.Take.reduce_andi_one _ _ _ _ (fun i' => ?_) (fun _ => rfl) _
  show IntOp.andi (IntOp.cmpi .sge (Cert.ReferenceIdeal.Read.val_main_v21 (F := Ideal) a3 _) 0#32)
    (IntOp.cmpi .sle (Cert.ReferenceIdeal.Read.val_main_v21 (F := Ideal) a3 _) 999#32) = 1#1
  rw [wrapped_eq a3 hr]
  exact Cert.Take.inrange_one _ (hr _)

/-! ## The four arrays -/

variable (m : (ℓ : Loc nD τ sig) → Buf (Elt Ideal) ℓ)

/-- Window 0's array holds the normalised query rows. -/
theorem queries (c : Dev nD) :
    (V m c main_v5 : S4096x512.Idx → EReal)
      = Cert.ReferenceIdeal.Read.val_main_v4 (F := Ideal) (m ((c : Thread nD τ).loc main_arg0)) := by
  dsimp only [V]
  simp only [hostOps0, hostOps0_1, hostOps0_2, hostOps0_3, hostOps0_4, hostOps0_5, List.flatten_cons,
    List.flatten_nil, List.append_nil, List.cons_append, List.nil_append]
  after_results_simp <;> rfl

/-- Window 1's array holds the normalised support rows. -/
theorem supports (c : Dev nD) :
    (V m c main_v11 : S8192x512.Idx → EReal)
      = Cert.ReferenceIdeal.Read.val_main_v9 (F := Ideal) (m ((c : Thread nD τ).loc main_arg1)) := by
  dsimp only [V]
  simp only [hostOps0, hostOps0_1, hostOps0_2, hostOps0_3, hostOps0_4, hostOps0_5, List.flatten_cons,
    List.flatten_nil, List.append_nil, List.cons_append, List.nil_append]
  after_results_simp <;> rfl

/-- Window 2's array holds the gathered prototype rows, with the fill where the in-range test fails. -/
theorem prototypes_fill (c : Dev nD) :
    (V m c main_v13 : S8192x512.Idx → EReal)
      = select (fillMask (m ((c : Thread nD τ).loc main_arg3)))
          (Cert.ReferenceIdeal.Read.val_main_v23 (F := Ideal) (m ((c : Thread nD τ).loc main_arg2))
            (m ((c : Thread nD τ).loc main_arg3)))
          (broadcastInDim S8192x512 ![] bcast_S_S8192x512 (constant (F := Ideal) S_ .f32 0x7FC00000#32)) := by
  dsimp only [V]
  simp only [hostOps0, hostOps0_1, hostOps0_2, hostOps0_3, hostOps0_4, hostOps0_5, List.flatten_cons,
    List.flatten_nil, List.append_nil, List.cons_append, List.nil_append]
  after_results_simp <;> rfl

/-- With every label below 1000, window 2's array holds the reference's gathered prototype rows. -/
theorem prototypes (c : Dev nD) (hr : ∀ j, (m ((c : Thread nD τ).loc main_arg3) j).toNat < 1000) :
    (V m c main_v13 : S8192x512.Idx → EReal)
      = Cert.ReferenceIdeal.Read.val_main_v23 (F := Ideal) (m ((c : Thread nD τ).loc main_arg2))
          (m ((c : Thread nD τ).loc main_arg3)) :=
  (prototypes_fill m c).trans (Cert.Take.select_all_one _ _ _ (fillMask_one _ hr))

/-- Window 3's array holds the transposed prototype table. -/
theorem table (c : Dev nD) :
    (V m c main_v15 : S512x1000.Idx → EReal)
      = Cert.ReferenceIdeal.Read.val_main_v25 (F := Ideal) (m ((c : Thread nD τ).loc main_arg2)) := by
  dsimp only [V]
  simp only [hostOps0, hostOps0_1, hostOps0_2, hostOps0_3, hostOps0_4, hostOps0_5, List.flatten_cons,
    List.flatten_nil, List.append_nil, List.cons_append, List.nil_append]
  after_results_simp <;> rfl

end Cert.KernelIdeal.Entry

end
-- ==== Proof.Final.lean ====
/-
  The program's result array.

  Only the last support tile of each query tile writes its output tile back; those four tiles cover the
  [4096, 1000] result. So after the run the result holds, at `(a, k)`, the weighted prototype of query row `a`
  against column `k` of the transposed table, over the arrays the region found. Under the label range those
  arrays are the reference's stages, the transposed table read at `(d, k)` is the table at `(k, d)`, and the result
  is `logits` of the reference's normalised queries, normalised supports and gathered prototype rows.
  The label range is read out of the precondition: its last two conjuncts say every label is at least 0 and below
  1000 as a signed number.
-/
import proofs.«416455_j25872882991649_1_alg».proof.Proof.Fold
import proofs.«416455_j25872882991649_1_alg».proof.Proof.Entry
import proofs.«416455_j25872882991649_1_alg».proof.Pre_finite_inputs
import proofs.«416455_j25872882991649_1_alg».proof.Proof.Gen.Pre_finite_inputs

noncomputable section

open scoped BigOperators

/-! ## The label range, out of the precondition -/

namespace Cert.Take

open Idealize.ShloMosaic

instance : Subsingleton Cert.Pre_finite_inputs.S_.Idx := ⟨fun a b => funext fun d => d.elim0⟩

/-- Where the precondition holds every label is a natural number below 1000. -/
theorem small_of_pre {F : FTy → Type} [FloatOps F] (a0 : FVec F Cert.Pre_finite_inputs.S4096x512 .f32)
    (a1 : FVec F Cert.Pre_finite_inputs.S8192x512 .f32) (a2 : FVec F Cert.Pre_finite_inputs.S1000x512 .f32)
    (a3 : IVec Cert.Pre_finite_inputs.S8192 32)
    (h : Cert.Pre_finite_inputs.fn (F := F) a0 a1 a2 a3 = fun _ => 1#1) (j : Cert.Pre_finite_inputs.S8192.Idx) :
    (a3 j).toNat < 1000 := by
  have h0 := congrFun h ValueIdx.ix0
  dsimp only [Cert.Pre_finite_inputs.fn, Cert.Pre_finite_inputs.fn_part1] at h0
  obtain ⟨h1, hlt⟩ := IntOp.andi_eq_one.1 h0
  obtain ⟨-, hge⟩ := IntOp.andi_eq_one.1 h1
  have e1 := Host.reduce_andi_all _ _ _ _ _ hge j
  have e2 := Host.reduce_andi_all _ _ _ _ _ hlt j
  exact small_of_cmp _ e1 e2

end Cert.Take

namespace Cert.KernelIdeal.Final

open Cert.KernelIdeal Cert.KernelIdeal.Gen Cert.KernelIdeal.Tiles Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ) (ρ : Dev nD → PrngReg)

/-- The result, over the arrays the region found: at `(a, k)` the weighted prototype of query row `a` against
    column `k` of the transposed table. -/
def result (c : Dev nD) : S4096x1000.Idx → EReal :=
  fun i => ∑ d : Fin 512, Cert.Attn.weighted (qArr m c) (kArr m c) (pArr m c) (i 0) d * tArr m c (ix2 d (i 1))

/-- The output tile is written back at the last support tile of each query tile, and only there. -/
theorem flush_iff : ∀ t : Fin cfg0.N, (cfg0.win 4).flush t = true ↔ t.val % 8 = 7 :=
  (by decide +kernel : ∀ t : Fin grid0.N, _)

/-- What a flushing point writes back is its tile of the result. -/
theorem flushed_eq (c : Dev nD) (t : Fin cfg0.N) (hf : (cfg0.win 4).flush t = true) :
    (dats m 0 c).flushed 4 t = ((cfg0.win 4).blk t).view.read (Elt Ideal) (result m c) := by
  have h1 : t.val % 8 = 7 := (flush_iff t).1 hf
  have h0 : ¬t.val % 8 = 0 := by omega
  obtain ⟨-, -, -, -, -, -, -, -, e0, e1⟩ := idx_facts t
  rw [Value.flushed4_C m c t h0 h1]
  funext j
  rw [View.read_apply]
  refine (Fold.out_tile m c t h0 h1 _ _ _).trans ?_
  unfold result
  refine Finset.sum_congr rfl fun d _ => ?_
  refine congrArg₂ (· * ·)
    (congrArg (fun x => Cert.Attn.weighted (qArr m c) (kArr m c) (pArr m c) x d) (Fin.ext ?_))
    (congrArg (fun x => tArr m c (ix2 d x)) (Fin.ext ?_))
  · show 1024 * (t.val / 8) + (j 0).val = win0_4.index t (0 : Fin 2) * 1024 + 1 * (j 0).val
    rw [e0]; omega
  · show (j 1).val = win0_4.index t (1 : Fin 2) * 1000 + 1 * (j 1).val
    rw [e1]; omega

/-- An index of the result is in point `t`'s tile iff each coordinate is in the tile's range on its axis. -/
theorem mem_tile (t : Fin cfg0.N) (i : S4096x1000.Idx) :
    i ∈ ((cfg0.win 4).blk t).view.set ↔ ∀ a : Fin 2, win0_4.index t a * S1024x1000.size a ≤ (i a).val
      ∧ (i a).val < win0_4.index t a * S1024x1000.size a + S1024x1000.size a := by
  show i ∈ ((View.whole main_v16).slice (win0_4.rect t)).set ↔ _
  rw [View.set_slice_whole, Rect.mem_set_unit]
  exact Iff.rfl

/-- Every index of the result is in the tile of some flushing point: the last support tile of its query tile. -/
theorem cover (i : S4096x1000.Idx) :
    ∃ t : Fin cfg0.N, (cfg0.win 4).flush t = true ∧ i ∈ ((cfg0.win 4).blk t).view.set := by
  have hi0 : (i 0).val < 4096 := (i 0).isLt
  have hi1 : (i 1).val < 1000 := (i 1).isLt
  have hN : 8 * ((i 0).val / 1024) + 7 < cfg0.N := lt_of_lt_of_eq (by omega) (show 32 = cfg0.N from N_0.symm)
  refine ⟨⟨8 * ((i 0).val / 1024) + 7, hN⟩, (flush_iff _).2 (by show (8 * ((i 0).val / 1024) + 7) % 8 = 7; omega), ?_⟩
  obtain ⟨-, -, -, -, -, -, -, -, e0, e1⟩ := idx_facts ⟨8 * ((i 0).val / 1024) + 7, hN⟩
  rw [mem_tile]
  intro a
  match a with
  | ⟨0, _⟩ =>
    show win0_4.index ⟨8 * ((i 0).val / 1024) + 7, hN⟩ (0 : Fin 2) * 1024 ≤ (i 0).val
      ∧ (i 0).val < win0_4.index ⟨8 * ((i 0).val / 1024) + 7, hN⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win0_4.index ⟨8 * ((i 0).val / 1024) + 7, hN⟩ (1 : Fin 2) * 1000 ≤ (i 1).val
      ∧ (i 1).val < win0_4.index ⟨8 * ((i 0).val / 1024) + 7, hN⟩ (1 : Fin 2) * 1000 + 1000
    rw [e1]
    omega

/-- After the run the result array holds `result`. -/
theorem final (c : Dev nD) : (dats m 0 c).arrAt 4 cfg0.N = result m c :=
  (dats m 0 c).arrAt_eq_of_cover 4 (result m c) (flushed_eq m c) cover

/-- The run, with the result array named. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

/-- With every label below 1000 the result is the logits of the reference's normalised queries, normalised
    supports and gathered prototype rows, against the prototype table. -/
theorem result_eq_logits (c : Dev nD) (hr : ∀ j, (m ((c : Thread nD τ).loc main_arg3) j).toNat < 1000) :
    result m c
      = Cert.Attn.logits (Cert.ReferenceIdeal.Read.val_main_v4 (F := Ideal) (m ((c : Thread nD τ).loc main_arg0)))
          (Cert.ReferenceIdeal.Read.val_main_v9 (F := Ideal) (m ((c : Thread nD τ).loc main_arg1)))
          (Cert.ReferenceIdeal.Read.val_main_v23 (F := Ideal) (m ((c : Thread nD τ).loc main_arg2))
            (m ((c : Thread nD τ).loc main_arg3)))
          (m ((c : Thread nD τ).loc main_arg2)) := by
  have hq : qArr m c = _ := Entry.queries m c
  have hk : kArr m c = _ := Entry.supports m c
  have hp : pArr m c = _ := Entry.prototypes m c hr
  have ht : tArr m c = _ := Entry.table m c
  funext i
  unfold result Cert.Attn.logits
  refine Finset.sum_congr rfl fun d _ => ?_
  rw [hq, hk, hp, ht, Cert.ReferenceIdeal.Read.val_main_v25_apply]
  refine congrArg (_ * m ((c : Thread nD τ).loc main_arg2) ·) ?_
  exact funext fun b => Fin.ext (by match b with | ⟨0, _⟩ => rfl | ⟨1, _⟩ => rfl)

end Cert.KernelIdeal.Final

end
-- ==== Proof.RefValue.lean ====
/-
  The reference computes the logits.

  Read one operation at a time, the reference's result at `(a, k)` is
  `∑ d, (∑ s, exp ((-1) * (1 - ⟨q a, k s⟩)) * sp (s, d)) * cp (k, d)`, over its own normalised queries `q`, normalised
  supports `k` and gathered prototype rows `sp` (the two transposes only swap coordinates). The exponent is
  `⟨q a, k s⟩ - 1` on every extended real, so this is `logits q k sp cp`.
-/
import proofs.«416455_j25872882991649_1_alg».proof.Proof.Gen.ReferenceIdeal.Read
import proofs.«416455_j25872882991649_1_alg».proof.Proof.Spec

noncomputable section

open scoped BigOperators

namespace Cert.ReferenceIdeal.RefValue

open Cert.ReferenceIdeal Cert.ReferenceIdeal.Gen Cert.ReferenceIdeal.Read Idealize.ShloMosaic
  Idealize.ShloMosaic.ValueIdx

/-- The weight the reference computes at `(a, s)`. -/
theorem weight_eq (x0 : (⟨S4096x512, .f32⟩ : BufTy).Contents (Elt Ideal)) (x1 : (⟨S8192x512, .f32⟩ : BufTy).Contents (Elt Ideal))
    (a : Fin 4096) (s : Fin 8192) :
    val_main_v16 (F := Ideal) x0 x1 (ix2 a s)
      = Cert.Attn.weight (val_main_v4 (F := Ideal) x0) (val_main_v9 (F := Ideal) x1) a s := by
  rw [val_main_v16_apply, val_main_v15_apply, val_main_v14_apply, val_main_v13_apply, val_main_v12_apply,
    val_main_v11_apply, val_main_cst_2_apply, val_main_cst_1_apply]
  simp only [Ideal.hostUnary_exp_def, Ideal.mulf_def, Ideal.subf_def, Ideal.ofBits_def, Ideal.ofBits_one_f32,
    Cert.Attn.ofBits_neg_one_f32]
  unfold Cert.Attn.weight
  rw [Cert.Attn.neg_one_mul_one_sub]
  refine congrArg (fun z : EReal => Ideal.exp (z - 1)) ?_
  refine Finset.sum_congr rfl fun e _ => ?_
  have el : lidx_main_v11 (ix2 a s) e = ix2 a e :=
    funext fun b => Fin.ext (by match b with | ⟨0, _⟩ => rfl | ⟨1, _⟩ => rfl)
  have er : ridx_main_v11 (ix2 a s) e = ix2 e s :=
    funext fun b => Fin.ext (by match b with | ⟨0, _⟩ => rfl | ⟨1, _⟩ => rfl)
  have et : idx_main_v10 (ix2 e s) = ix2 s e :=
    funext fun b => Fin.ext (by match b with | ⟨0, _⟩ => rfl | ⟨1, _⟩ => rfl)
  rw [el, er, val_main_v10_apply, et]

/-- The reference's result is the logits of its normalised queries, normalised supports, gathered prototype rows
    and the prototype table. -/
theorem result_eq (x0 : (⟨S4096x512, .f32⟩ : BufTy).Contents (Elt Ideal)) (x1 : (⟨S8192x512, .f32⟩ : BufTy).Contents (Elt Ideal))
    (x2 : (⟨S1000x512, .f32⟩ : BufTy).Contents (Elt Ideal)) (x3 : (⟨S8192, .i32⟩ : BufTy).Contents (Elt Ideal)) :
    val_main_v26 (F := Ideal) x0 x1 x2 x3
      = Cert.Attn.logits (val_main_v4 (F := Ideal) x0) (val_main_v9 (F := Ideal) x1)
          (val_main_v23 (F := Ideal) x2 x3) x2 := by
  funext i
  obtain ⟨a, k, rfl⟩ : ∃ (a : Fin 4096) (k : Fin 1000), i = ix2 a k := ⟨i 0, i 1, eq_ix2 i⟩
  rw [val_main_v26_apply]
  unfold Cert.Attn.logits
  refine Finset.sum_congr rfl fun d _ => ?_
  have e1 : lidx_main_v26 (ix2 a k) d = ix2 a d :=
    funext fun b => Fin.ext (by match b with | ⟨0, _⟩ => rfl | ⟨1, _⟩ => rfl)
  have e2 : ridx_main_v26 (ix2 a k) d = ix2 d k :=
    funext fun b => Fin.ext (by match b with | ⟨0, _⟩ => rfl | ⟨1, _⟩ => rfl)
  have e3 : idx_main_v25 (ix2 d k) = ix2 k d :=
    funext fun b => Fin.ext (by match b with | ⟨0, _⟩ => rfl | ⟨1, _⟩ => rfl)
  rw [e1, e2, val_main_v25_apply, e3, val_main_v24_apply]
  refine congrArg (· * x2 (ix2 k d)) ?_
  unfold Cert.Attn.weighted
  refine Finset.sum_congr rfl fun s _ => ?_
  have e4 : lidx_main_v24 (ix2 a d) s = ix2 a s :=
    funext fun b => Fin.ext (by match b with | ⟨0, _⟩ => rfl | ⟨1, _⟩ => rfl)
  have e5 : ridx_main_v24 (ix2 a d) s = ix2 s d :=
    funext fun b => Fin.ext (by match b with | ⟨0, _⟩ => rfl | ⟨1, _⟩ => rfl)
  rw [e4, e5, weight_eq]

end Cert.ReferenceIdeal.RefValue

end
-- ==== Proof.lean ====
/-
  Exponential-kernel attention over class prototypes: the tiled program against the plain one.

  Both programs normalise the query rows and the support rows, take the similarities `sim = q · kᵀ`, weigh support
  row `s` for query row `a` by `exp (sim a s - 1)`, sum the prototype rows of the supports' class labels with those
  weights, and take the result's inner products with every prototype row. They differ in three ways. The tiled
  program walks the 8192 support rows in 8 tiles of 1024, accumulating; a sum over 8192 positions is the sum of its
  8 block sums. The plain program writes the exponent as `(-1) * (1 - sim)`, which is `sim - 1` on every extended
  real. And the tiled program's gather fills a row with a not-a-number where a class label is out of range, while
  the plain one's does not: the statement therefore asks, besides finite float inputs, that every label lie in
  `0 … 999`, the range of the prototype table's rows, and under it the fill is never taken. Changes of float format
  are the identity on the extended reals. No finiteness is used: every step holds for all extended reals.

  The three frames are the generated ones (the plain program's is its generated run with the result dropped), the
  idealization rewrote nothing, and the value claim sets the tiled program's result array beside the plain
  program's run.
-/
import proofs.«416455_j25872882991649_1_alg».proof.Defs
import proofs.«416455_j25872882991649_1_alg».proof.Proof.Gen.Kernel
import proofs.«416455_j25872882991649_1_alg».proof.Proof.Gen.Kernel.Frame
import proofs.«416455_j25872882991649_1_alg».proof.Proof.Gen.KernelIdeal
import proofs.«416455_j25872882991649_1_alg».proof.Proof.Gen.KernelIdeal.Frame
import proofs.«416455_j25872882991649_1_alg».proof.Proof.Gen.KernelIdeal.Value
import proofs.«416455_j25872882991649_1_alg».proof.Proof.Gen.ReferenceIdeal
import proofs.«416455_j25872882991649_1_alg».proof.Proof.Gen.ReferenceIdeal.Run
import proofs.«416455_j25872882991649_1_alg».proof.Proof.Gen.ReferenceIdeal.Read
import proofs.«416455_j25872882991649_1_alg».proof.Proof.Gen.Pre_finite_inputs
import proofs.«416455_j25872882991649_1_alg».proof.Proof.Final
import proofs.«416455_j25872882991649_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as they were. -/
theorem frame_kernel : Cert.frame_Kernel := fun m ρ _ => Cert.Kernel.Gen.frame m ρ

/-- So does the idealized program. -/
theorem frame_kernelIdeal : Cert.frame_KernelIdeal := fun m ρ _ => Cert.KernelIdeal.Gen.frame m ρ

/-- The plain program runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, with every label in range, both programs end with the logits of the
    same normalised queries, normalised supports and gathered prototype rows. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  have hr : ∀ j, (m ((c : Thread Cert.KernelIdeal.nD Cert.KernelIdeal.τ).loc Cert.KernelIdeal.main_arg3) j).toNat < 1000 :=
    fun j => Cert.Take.small_of_pre _ _ _ _ (hpre c) j
  show _ = Cert.KernelIdeal.Final.result m c
  rw [Cert.KernelIdeal.Final.result_eq_logits m c hr, (hagree c).1, (hagree c).2.1, (hagree c).2.2.1, (hagree c).2.2.2]
  exact (Cert.ReferenceIdeal.Read.val_main_v26_eq _ _ _ _).trans (Cert.ReferenceIdeal.RefValue.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
